-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  reducesTo_S8192x256_S8192_d1 : S8192x256.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := mulf main_arg0 main_arg0
  let main_cst_0 : FVec F S_ .f32 := constant S_ .f32 0x00000000#32
  let main_v5 : FVec F S8192 .f32 := (fun x v => Host.reduceAdd x v reducesTo_S8192x256_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x256 : Shape := ⟨2, ![8192, 256]⟩
abbrev S8192 : Shape := ⟨1, ![8192]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .bf16 = 32 ∨ (Rect.block (s := S8192x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .bf16 = 32 ∨ (Rect.block (s := S8192x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call1_v0 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_call2_v0 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_call3_cst : Ref sig .tc := ⟨.hbm, 31, rfl⟩
abbrev main_call3_v0 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.NormRegionB.lean ====
import proofs.«116771_j2688649527615_1_alg».proof.Proof.Gen.Kernel.Launch
import proofs.«116771_j2688649527615_1_alg».proof.Proof.Gen.Kernel.Skeleton
import proofs.«116771_j2688649527615_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first call: every block of 1024 rows scaled to unit length, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole [1024, 256] block -/

abbrev r0_0 : Rect S1024x256 := Rect.unit (s := S1024x256) ![0, 0] S1024x256.size inb_S1024x256_S1024x256_0_0

/-! ## What the body leaves in the output window's buffer -/

/-- The output block after the body, from the input block: one store of the scaled rows over the whole block. -/
def out0_1 (x0 : Vec F S1024x256 .f32) : Vec F S1024x256 .bf16 :=
  View.canon [⟨r0_0, k0_pay1 (View.ld x0 r0_0)⟩]

/-- The one store covers the block. -/
theorem cover0_1 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- On whole staging memrefs, the input's at contents `x0` and the output's at anything, the body runs to the
    continuation holding the input's as it was and the output's at `out0_1 x0`. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the first call on core `c`: the arrays as the region finds them; after the body at point `t`
    the input's buffer at its block and the output's at `out0_1` of it; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.TripletRegionB.lean ====
import proofs.«116771_j2688649527615_1_alg».proof.Proof.Gen.Kernel.Launch
import proofs.«116771_j2688649527615_1_alg».proof.Proof.Gen.Kernel.Skeleton
import proofs.«116771_j2688649527615_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the second call (the running extrema over the column tiles), at the entry contents `V`

The grid is 16 × 16: point `t` is row tile `t / 16` against column tile `t % 16`. Windows 0 and 1 are the row tile's and
the column tile's scaled rows (one array, read twice), windows 2 and 3 the label column's and the label row's tiles, windows
4 and 5 the running minimum and the running maximum of the row tile, written back after the last column tile only. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional: the column tile is the first. -/
abbrev cond1_0 (i : grid1.Coords) : Prop := (Scalar.cmpi .ne (Scalar.extui (Scalar.cmpi .eq (BitVec.ofNat 32 (i 1).val) 0#32)) 0#32) = 1#1
/-- It holds at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The kernel body on any staging memrefs -/

/-- One staging buffer of each output window, through which its contents are stated (the choice does not matter). -/
abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
/-- Each window's current staging memref at point `t`, and its wholeness. -/
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)

set_option maxHeartbeats 1000000 in
/-- CASE A (the first column tile). What the body's stores leave in the two outputs' staging memrefs, as pieces (last
    first), with the proof that on whole staging memrefs (the four inputs' at their contents, the two outputs' at anything)
    the body runs to the continuation holding the inputs' as they were and each output's buffer with its pieces written:
    the running extrema are reset (to the largest finite value and to its negative) and then met with this tile's. -/
noncomputable def kernelRun1_A (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__triplet_kernel i arg2 harg2 arg3 harg3 arg4 harg4 arg5 harg5 arg6 harg6 arg7 harg7) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

set_option maxHeartbeats 1000000 in
/-- CASE B (a later column tile). The same with the conditional not taken: the two outputs' buffers are handed in at the
    running extrema the point before left (`xo4`, `xo5`) and met with this tile's. -/
noncomputable def kernelRun1_B (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__triplet_kernel i arg2 harg2 arg3 harg3 arg4 harg4 arg5 harg5 arg6 harg6 arg7 harg7) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-! ## What each case leaves in the outputs' buffers -/

/-- Case A's pieces for the running minimum tile its block (two whole stores), so they cover it. -/
theorem cover1_A_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S512x1.size (by sl_kernel_rfl) y
/-- Case A's pieces for the running maximum tile its block, so they cover it. -/
theorem cover1_A_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S512x1.size (by sl_kernel_rfl) y

/-- What case A leaves in the running minimum's staging buffer: its pieces read back over junk. -/
def out1_A_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) : Vec F S512x1 .f32 :=
  VO1_4.read (Elt F) (VO1_4.writes (Elt F) VO1_4.junk (kernelRun1_A c i arg2 harg2 arg3 harg3 arg4 harg4 arg5 harg5 arg6 harg6 arg7 harg7 hc0 x0 x1 x2 x3).1)
/-- What case A leaves in the running maximum's staging buffer. -/
def out1_A_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) : Vec F S512x1 .f32 :=
  VO1_5.read (Elt F) (VO1_5.writes (Elt F) VO1_5.junk (kernelRun1_A c i arg2 harg2 arg3 harg3 arg4 harg4 arg5 harg5 arg6 harg6 arg7 harg7 hc0 x0 x1 x2 x3).2.1)

/-- Case B's pieces for the running minimum tile its block (one whole store), so they cover it. -/
theorem cover1_B_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) (y : S512x1.Idx) :
    ∃ pc ∈ (kernelRun1_B c i arg2 harg2 arg3 harg3 arg4 harg4 arg5 harg5 arg6 harg6 arg7 harg7 hc0 x0 x1 x2 x3 xo4 xo5).1, y ∈ pc.1.set :=
  View.cover_of_tiledL (kernelRun1_B c i arg2 harg2 arg3 harg3 arg4 harg4 arg5 harg5 arg6 harg6 arg7 harg7 hc0 x0 x1 x2 x3 xo4 xo5).1 S512x1.size (by sl_kernel_rfl) y
/-- Case B's pieces for the running maximum tile its block, so they cover it. -/
theorem cover1_B_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) (y : S512x1.Idx) :
    ∃ pc ∈ (kernelRun1_B c i arg2 harg2 arg3 harg3 arg4 harg4 arg5 harg5 arg6 harg6 arg7 harg7 hc0 x0 x1 x2 x3 xo4 xo5).2.1, y ∈ pc.1.set :=
  View.cover_of_tiledL (kernelRun1_B c i arg2 harg2 arg3 harg3 arg4 harg4 arg5 harg5 arg6 harg6 arg7 harg7 hc0 x0 x1 x2 x3 xo4 xo5).2.1 S512x1.size (by sl_kernel_rfl) y

/-- What case B leaves in the running minimum's staging buffer: its pieces read back over junk. -/
def out1_B_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) : Vec F S512x1 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xo5).1)
/-- What case B leaves in the running maximum's staging buffer. -/
def out1_B_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) : Vec F S512x1 .f32 :=
  VO1_5.read (Elt F) (VO1_5.writes (Elt F) VO1_5.junk (kernelRun1_B c i arg2 harg2 arg3 harg3 arg4 harg4 arg5 harg5 arg6 harg6 arg7 harg7 hc0 x0 x1 x2 x3 xo4 xo5).2.1)

/-! ## What the outputs hold after each point -/

/-- THE RUNNING EXTREMA. What the two outputs' staging buffers hold (minimum, maximum) after the body at position `n`:
    at a first column tile (`n % 16 = 0`) case A's contents, else case B's over what this leaves at `n - 1` (the buffers
    are not written back between). -/
def outsAt1 (c : Dev nD) : (n : ℕ) → n < cfg1.N → Vec F S512x1 .f32 × Vec F S512x1 .f32
  | 0, hn =>
      (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
       out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- `outsAt1` at a point of case A: that case's contents. -/
theorem outsAt1_A (c : Dev nD) (t : Fin cfg1.N) (h0 : t.val % 16 = 0) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 16 = 0) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the second call's pipeline on core `c`: the arrays as the region finds them (`V`); after the body
    at point `t` each input's buffer at its block and the two outputs' at `outsAt1`; the class's invariant; nothing owed;
    windows 0 and 1 read ONE array, each through half of it, the other windows hold theirs whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q := fun w => match w with
    | ⟨0, _⟩ => fullShare.left
    | ⟨1, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of case B output 4's current staging buffer holds what the body left at the point before: the point is not
    the first, the buffer was not written back between, the window is live and uncut. -/
theorem before1_4_B (c : Dev nD) (t : Fin cfg1.N) (h0 : ¬t.val % 16 = 0) (d) :
    (dat1 V c).before 4 t d = (outsAt1 V c (t.val - 1) (Nat.lt_of_le_of_lt (Nat.sub_le _ _) t.isLt)).1 := by
  have hN : t.val < 256 := lt_of_lt_of_eq t.isLt (show cfg1.N = 256 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a point of case B output 5's current staging buffer holds what the body left at the point before: the point is not
    the first, the buffer was not written back between, the window is live and uncut. -/
theorem before1_5_B (c : Dev nD) (t : Fin cfg1.N) (h0 : ¬t.val % 16 = 0) (d) :
    (dat1 V c).before 5 t d = (outsAt1 V c (t.val - 1) (Nat.lt_of_le_of_lt (Nat.sub_le _ _) t.isLt)).2 := by
  have hN : t.val < 256 := lt_of_lt_of_eq t.isLt (show cfg1.N = 256 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' memrefs hold their blocks; the closed form says which case the point is in; in case B
    each output holds what the point before left; so the run applies; the invariant passes through unread; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 256 := lt_of_lt_of_eq t.isLt (show cfg1.N = 256 from N_1)
  by_cases h0 : t.val % 16 = 0
  · rw [outsAt1_A V c t h0]
    dsimp only
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _)
  · rw [outsAt1_B V c t h0]
    simp only [before1_4_B V c t h0, before1_5_B V c t h0]
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.SharedArraysB.lean ====
/-
  One array read through two input windows of the second call: the buffers behind the windows' arrays, each whole at
  the full share, are the six windows' arrays at their shares (the two windows on the scaled rows each at half of that
  buffer), and back.
-/
import proofs.«116771_j2688649527615_1_alg».proof.Proof.Gen.Kernel.Launch
import Idealize.ShloMosaic.Lib.Pipeline.FrameBody

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3_0) ↦{fullShare} Vc main_v3_0)
          ∗ (((c : Thread nD τ).loc main_v3_1) ↦{fullShare} Vc main_v3_1)) := by
  unfold Pipeline.arrBufs
  rw [BI.bigSep_eq_bigSepL_of_eq [main_v0, main_v1, main_v2, main_v3_0, main_v3_1] (by decide) (by decide)]
  rfl

theorem arrays1_eq (c : Dev nD) (dat : Dat τ (Elt F) Unit ℕ (UR sig nD τ) ℕ cfg1 c)
    (G : (w : Fin cfg1.W) → Buf (Elt F) ((cfg1.win w).arr.view.loc (c.tc : Thread nD τ))) :
    (dat.arrays G : sProp 𝕄)
      = iprop((((c : Thread nD τ).loc main_v0) ↦{dat.share 0} G 0) ∗ (((c : Thread nD τ).loc main_v0) ↦{dat.share 1} G 1)
          ∗ (((c : Thread nD τ).loc main_v1) ↦{dat.share 2} G 2) ∗ (((c : Thread nD τ).loc main_v2) ↦{dat.share 3} G 3)
          ∗ (((c : Thread nD τ).loc main_v3_0) ↦{dat.share 4} G 4) ∗ (((c : Thread nD τ).loc main_v3_1) ↦{dat.share 5} G 5)) := by
  unfold Dat.arrays
  rw [bigSep_W1]
  rw [(arr_whole1 0).set_eq_univ, (arr_whole1 2).set_eq_univ, (arr_whole1 3).set_eq_univ, (arr_whole1 4).set_eq_univ, (arr_whole1 5).set_eq_univ]

/-- The buffers behind the second call's arrays, whole at the full share at contents `Vc`, are its six windows'
    arrays at contents that agree with `Vc`: the buffer of scaled rows is split into its two halves, one per window
    that reads it. -/
theorem arrays_of_bufs1 (c : Dev nD) (dat : Dat τ (Elt F) Unit ℕ (UR sig nD τ) ℕ cfg1 c)
    (hs0 : dat.share 0 = fullShare.left) (hs1 : dat.share 1 = fullShare.right) (hs2 : dat.share 2 = fullShare)
    (hs3 : dat.share 3 = fullShare) (hs4 : dat.share 4 = fullShare) (hs5 : dat.share 5 = fullShare)
    (Vc : (b : Ref sig .tc) → Buf (Elt F) ((c : Thread nD τ).loc b))
    (G : (w : Fin cfg1.W) → Buf (Elt F) ((cfg1.win w).arr.view.loc (c.tc : Thread nD τ)))
    (hG : ∀ w, G w = Vc (Pipeline.arrRef spec1 w)) :
    (Pipeline.arrBufs (Ix := Unit) (Name := ℕ) (U := UR sig nD τ) (Lvl := ℕ) spec1 c Vc : sProp 𝕄) ⊢ dat.arrays G := by
  rw [arrBufs1_eq, arrays1_eq, hs0, hs1, hs2, hs3, hs4, hs5, hG 0, hG 1, hG 2, hG 3, hG 4, hG 5]
  iintro ⟨H0, H1, H2, H3, H4⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H4

/-- And back: the two halves rejoin. -/
theorem bufs_of_arrays1 (c : Dev nD) (dat : Dat τ (Elt F) Unit ℕ (UR sig nD τ) ℕ cfg1 c)
    (hs0 : dat.share 0 = fullShare.left) (hs1 : dat.share 1 = fullShare.right) (hs2 : dat.share 2 = fullShare)
    (hs3 : dat.share 3 = fullShare) (hs4 : dat.share 4 = fullShare) (hs5 : dat.share 5 = fullShare)
    (Vc : (b : Ref sig .tc) → Buf (Elt F) ((c : Thread nD τ).loc b))
    (G : (w : Fin cfg1.W) → Buf (Elt F) ((cfg1.win w).arr.view.loc (c.tc : Thread nD τ)))
    (hG : ∀ w, G w = Vc (Pipeline.arrRef spec1 w)) :
    (dat.arrays G : sProp 𝕄) ⊢ Pipeline.arrBufs (Ix := Unit) (Name := ℕ) (U := UR sig nD τ) (Lvl := ℕ) spec1 c Vc := by
  rw [arrBufs1_eq, arrays1_eq, hs0, hs1, hs2, hs3, hs4, hs5, hG 0, hG 1, hG 2, hG 3, hG 4, hG 5]
  iintro ⟨Ha, Hb, H1, H2, H3, H4⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  iexact H4

end Cert.Kernel.Fr

end
-- ==== Proof.MainRunB.lean ====
/-
  The kernel program's run, region by region: the scaling call's arrays split out of the unscoped buffers and put back
  with the scaled rows in place; the label reshapes; the extrema call entered with the scaled rows' buffer read through
  two windows at half a share each and left with its two result columns in place; the closing host reduction.
  Stated for any float values: the result buffer ends at the host tail's term of what the regions leave, the two
  argument buffers as launched.
-/
import proofs.«116771_j2688649527615_1_alg».proof.Proof.NormRegionB
import proofs.«116771_j2688649527615_1_alg».proof.Proof.TripletRegionB
import proofs.«116771_j2688649527615_1_alg».proof.Proof.SharedArraysB
import proofs.«116771_j2688649527615_1_alg».proof.Proof.RunCondB
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- The scaling call's entry contents: the launch memory. -/
abbrev E0 (c : Dev nD) (b : Ref sig .tc) : Buf (Elt F) ((c : Thread nD τ).loc b) := V0 m c b

/-- What the scaling call leaves in the buffer of scaled rows. -/
def o1 (c : Dev nD) : Buf (Elt F) ((c : Thread nD τ).loc main_v0) := (dat0 (E0 m) c).arrAt 1 cfg0.N

/-- The regions' leavings with only the scaling call's named (what the extrema call's entry contents read). -/
def outs1 : Outs (F := F) := fun _ r c => Function.update (V0 m c) main_v0 (o1 m c) r

/-- The extrema call's entry contents: the scaled rows in place, then the two label reshapes. -/
abbrev E1 (c : Dev nD) (b : Ref sig .tc) : Buf (Elt F) ((c : Thread nD τ).loc b) := V2 m (outs1 m) c b

/-- What the extrema call leaves in its two result columns. -/
def o4 (c : Dev nD) : Buf (Elt F) ((c : Thread nD τ).loc main_v3_0) := (dat1 (E1 m) c).arrAt 4 cfg1.N
def o5 (c : Dev nD) : Buf (Elt F) ((c : Thread nD τ).loc main_v3_1) := (dat1 (E1 m) c).arrAt 5 cfg1.N

/-- The regions' leavings, all named. -/
def outsK : Outs (F := F) := fun j r c =>
  if j = 1 then Function.update (V0 m c) main_v0 (o1 m c) r
  else Function.update (Function.update (V2 m (outs1 m) c) main_v3_0 (o4 m c)) main_v3_1 (o5 m c) r

theorem outs1_v0 (c : Dev nD) : outs1 m 1 main_v0 c = o1 m c := by
  unfold outs1; exact Function.update_self ..
theorem outsK_v0 (c : Dev nD) : outsK m 1 main_v0 c = o1 m c := by
  unfold outsK; rw [if_pos rfl]; exact Function.update_self ..
theorem outsK_v3_0 (c : Dev nD) : outsK m 3 main_v3_0 c = o4 m c := by
  unfold outsK; rw [if_neg (by decide)]
  rw [Function.update_of_ne (StableHlo.devRef_ne_of_ne (show (main_v3_0 : Ref sig .tc) ≠ main_v3_1 by decide))]
  exact Function.update_self ..
theorem outsK_v3_1 (c : Dev nD) : outsK m 3 main_v3_1 c = o5 m c := by
  unfold outsK; rw [if_neg (by decide)]; exact Function.update_self ..

theorem V1_outsK (c : Dev nD) : V1 m (outsK m) c = V1 m (outs1 m) c := by
  show Function.update (V0 m c) main_v0 (outsK m 1 main_v0 c) = Function.update (V0 m c) main_v0 (outs1 m 1 main_v0 c)
  rw [outsK_v0, outs1_v0]
theorem V2_outsK (c : Dev nD) : V2 m (outsK m) c = V2 m (outs1 m) c :=
  congrArg (StableHlo.after hostOps1) (V1_outsK m c)

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0

/-- Beside the buffers through every segment: the core's generator register at some state and its dues, none. -/
abbrev R (c : Dev nD) : sProp 𝕄 := iprop((∃ r, prngReg c r) ∗ ∃ W, owes (c : Thread nD τ) (0 : CellTallies nD τ sig Unit) W)

/-! ## The scaling call as a segment -/

theorem hF0 (c : Dev nD) : ∀ w : Fin cfg0.W, (pdats m 0 c).arrAt w cfg0.N = V1 m (outsK m) c (Pipeline.arrRef spec0 w)
  | ⟨0, _⟩ => ((pdats m 0 c).arrAt_in 0 rfl _).trans ((A_eq0 (E0 m) c 0).trans (V1_of m (outsK m) c main_arg0 (by decide)).symm)
  | ⟨1, _⟩ => by
      show o1 m c = Function.update (V0 m c) main_v0 (outsK m 1 main_v0 c) main_v0
      rw [Function.update_self]; exact (outsK_v0 m c).symm

theorem hrest0 (c : Dev nD) : ∀ b, b ∉ Finset.univ.image (Pipeline.arrRef spec0) → V1 m (outsK m) c b = V0 m c b :=
  fun b hb => V1_of m (outsK m) c b (fun h => hb (Finset.mem_image.mpr ⟨1, Finset.mem_univ _, (List.mem_singleton.mp h).symm⟩))

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V1 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The extrema call as a segment -/

theorem share1_0 (c : Dev nD) : (pdats m 1 c).share 0 = fullShare.left := rfl
theorem share1_1 (c : Dev nD) : (pdats m 1 c).share 1 = fullShare.right := rfl
theorem share1_2 (c : Dev nD) : (pdats m 1 c).share 2 = fullShare := rfl
theorem share1_3 (c : Dev nD) : (pdats m 1 c).share 3 = fullShare := rfl
theorem share1_4 (c : Dev nD) : (pdats m 1 c).share 4 = fullShare := rfl
theorem share1_5 (c : Dev nD) : (pdats m 1 c).share 5 = fullShare := rfl

/-- At entry each window's array is the entry contents' buffer. -/
theorem hG1_entry (c : Dev nD) (w : Fin cfg1.W) : (pdats m 1 c).arrAt w 0 = E1 m c (Pipeline.arrRef spec1 w) :=
  (rfl : (pdats m 1 c).arrAt w 0 = (pdats m 1 c).A w).trans (A_eq1 (E1 m) c w)

/-- The contents after the extrema call, read at the TensorCore's references. -/
abbrev X3 (c : Dev nD) (b : Ref sig .tc) : Buf (Elt F) ((c : Thread nD τ).loc b) := V3 m (outsK m) c b

theorem X3_of (c : Dev nD) (b : Ref sig .tc) (h : b ∉ ([main_v3_0, main_v3_1] : List (Ref sig .tc))) : X3 m c b = E1 m c b :=
  (V3_of m (outsK m) c b h).trans (congrFun (V2_outsK m c) b)

/-- The valuation after the extrema call at its two result columns: what the call leaves there. -/
theorem V3_at_v3_0 (outs : Outs (F := F)) (c : Dev nD) : V3 m outs c main_v3_0 = outs 3 main_v3_0 c := by
  show Function.update (Function.update (V2 m outs c) main_v3_0 (outs 3 main_v3_0 c)) main_v3_1 (outs 3 main_v3_1 c) main_v3_0 = _
  rw [Function.update_of_ne (StableHlo.devRef_ne_of_ne (show (main_v3_0 : Ref sig .tc) ≠ main_v3_1 by decide))]
  exact Function.update_self ..
theorem V3_at_v3_1 (outs : Outs (F := F)) (c : Dev nD) : V3 m outs c main_v3_1 = outs 3 main_v3_1 c := by
  show Function.update (Function.update (V2 m outs c) main_v3_0 (outs 3 main_v3_0 c)) main_v3_1 (outs 3 main_v3_1 c) main_v3_1 = _
  exact Function.update_self ..

/-- At exit each window's array holds what the last valuation says: the inputs as entered, the two result columns what
    the write-backs left. -/
theorem hG1_exit (c : Dev nD) : ∀ w : Fin cfg1.W, (pdats m 1 c).arrAt w cfg1.N = X3 m c (Pipeline.arrRef spec1 w)
  | ⟨0, _⟩ => ((pdats m 1 c).arrAt_in 0 rfl _).trans ((A_eq1 (E1 m) c 0).trans (X3_of m c main_v0 (by decide)).symm)
  | ⟨1, _⟩ => ((pdats m 1 c).arrAt_in 1 rfl _).trans ((A_eq1 (E1 m) c 1).trans (X3_of m c main_v0 (by decide)).symm)
  | ⟨2, _⟩ => ((pdats m 1 c).arrAt_in 2 rfl _).trans ((A_eq1 (E1 m) c 2).trans (X3_of m c main_v1 (by decide)).symm)
  | ⟨3, _⟩ => ((pdats m 1 c).arrAt_in 3 rfl _).trans ((A_eq1 (E1 m) c 3).trans (X3_of m c main_v2 (by decide)).symm)
  | ⟨4, _⟩ => by
      show o4 m c = V3 m (outsK m) c main_v3_0
      rw [V3_at_v3_0, outsK_v3_0]
  | ⟨5, _⟩ => by
      show o5 m c = V3 m (outsK m) c main_v3_1
      rw [V3_at_v3_1, outsK_v3_1]

theorem hrest1 (c : Dev nD) (b : Ref sig .tc) (hb : b ∉ Finset.univ.image (Pipeline.arrRef spec1)) : X3 m c b = E1 m c b :=
  X3_of m c b (fun h => hb (by
    rcases List.mem_cons.mp h with h | h
    · exact Finset.mem_image.mpr ⟨4, Finset.mem_univ _, h.symm⟩
    · exact Finset.mem_image.mpr ⟨5, Finset.mem_univ _, (List.mem_singleton.mp h).symm⟩))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V2 m (outsK m) c) ∗ R c)
  post c := iprop(StableHlo.held (c : Thread nD τ) (Pipeline.ucRefs τ sig) (V3 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V2_outsK]
    have hub : (StableHlo.held (c : Thread nD τ) (Pipeline.ucRefs τ sig) (V2 m (outs1 m) c) : sProp 𝕄)
        = iprop(Pipeline.arrBufs (Ix := Unit) (Name := ℕ) (U := UR sig nD τ) (Lvl := ℕ) spec1 c (E1 m c) ∗ Pipeline.unscopedRest spec1 c (E1 m c)) := by
      rw [← Pipeline.unscopedBufs_held c (V2 m (outs1 m) c)]
      exact Pipeline.unscopedBufs_split₀ (cfgs) (1 : Fin 2) winFacts₀1.arr_unscoped c (E1 m c)
    rw [hub]
    iintro ⟨⟨⟨Hab, Hrest⟩, Hp, HO⟩, -, -⟩
    ihave Ha := (arrays_of_bufs1 c (pdats m 1 c) (share1_0 m c) (share1_1 m c) (share1_2 m c) (share1_3 m c) (share1_4 m c) (share1_5 m c)
      (E1 m c) ((pdats m 1 c).arrAt · 0) (hG1_entry m c)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (V3 m (outsK m) c) : sProp 𝕄)
        = iprop(Pipeline.arrBufs (Ix := Unit) (Name := ℕ) (U := UR sig nD τ) (Lvl := ℕ) spec1 c (X3 m c) ∗ Pipeline.unscopedRest spec1 c (X3 m c)) := by
      rw [← Pipeline.unscopedBufs_held c (V3 m (outsK m) c)]
      exact Pipeline.unscopedBufs_split₀ (cfgs) (1 : Fin 2) winFacts₀1.arr_unscoped c (X3 m c)
    have hr : (Pipeline.unscopedRest (Ix := Unit) (Name := ℕ) (U := UR sig nD τ) (Lvl := ℕ) spec1 c (E1 m c) : sProp 𝕄)
        = Pipeline.unscopedRest spec1 c (X3 m c) := by
      unfold Pipeline.unscopedRest
      exact BI.bigSep_congr fun b hb => by rw [hrest1 m c b (Finset.mem_sdiff.mp hb).2]
    rw [hub]
    iintro ⟨Ha, HO, HY, Hrest⟩
    ihave Hab := (bufs_of_arrays1 c (pdats m 1 c) (share1_0 m c) (share1_1 m c) (share1_2 m c) (share1_3 m c) (share1_4 m c) (share1_5 m c)
      (X3 m c) ((pdats m 1 c).arrAt · cfg1.N) (hG1_exit m c)) $$ Ha
    ihave Hrest' := (Entails.of_eq hr) $$ Hrest
    imodintro
    isplitl [Hab Hrest']
    · isplitl [Hab]; · iexact Hab
      iexact Hrest'
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates; the result buffer ends at the
    closing host reduction's term of what the two calls leave, the argument buffers as launched. -/
theorem run_main : θ_run defs (onTc (τ := τ) (main (F := F))) ⟨m, fun _ => 0, ρ⟩ (fun r => ∀ c : Dev nD,
      r.2.mem ((c.tc : Thread nD τ).loc main_v11) = V6 m (outsK m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (emb₁ : Emb (UR sig nD τ) 𝕄) () 𝒱₀ L lv (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.Kernel.Fr

end
-- ==== Proof.NormRegion.lean ====
import proofs.«116771_j2688649527615_1_alg».proof.Proof.Gen.KernelIdeal.Launch
import proofs.«116771_j2688649527615_1_alg».proof.Proof.Gen.KernelIdeal.Skeleton
import proofs.«116771_j2688649527615_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first call: every block of 1024 rows scaled to unit length, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole [1024, 256] block -/

abbrev r0_0 : Rect S1024x256 := Rect.unit (s := S1024x256) ![0, 0] S1024x256.size inb_S1024x256_S1024x256_0_0

/-! ## What the body leaves in the output window's buffer -/

/-- The output block after the body, from the input block: one store of the scaled rows over the whole block. -/
def out0_1 (x0 : Vec F S1024x256 .f32) : Vec F S1024x256 .bf16 :=
  View.canon [⟨r0_0, k0_pay1 (View.ld x0 r0_0)⟩]

/-- The one store covers the block. -/
theorem cover0_1 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- On whole staging memrefs, the input's at contents `x0` and the output's at anything, the body runs to the
    continuation holding the input's as it was and the output's at `out0_1 x0`. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the first call on core `c`: the arrays as the region finds them; after the body at point `t`
    the input's buffer at its block and the output's at `out0_1` of it; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.TripletRegion.lean ====
import proofs.«116771_j2688649527615_1_alg».proof.Proof.Gen.KernelIdeal.Launch
import proofs.«116771_j2688649527615_1_alg».proof.Proof.Gen.KernelIdeal.Skeleton
import proofs.«116771_j2688649527615_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the second call (the running extrema over the column tiles), at the entry contents `V`

The grid is 16 × 16: point `t` is row tile `t / 16` against column tile `t % 16`. Windows 0 and 1 are the row tile's and
the column tile's scaled rows (one array, read twice), windows 2 and 3 the label column's and the label row's tiles, windows
4 and 5 the running minimum and the running maximum of the row tile, written back after the last column tile only. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional: the column tile is the first. -/
abbrev cond1_0 (i : grid1.Coords) : Prop := (Scalar.cmpi .ne (Scalar.extui (Scalar.cmpi .eq (BitVec.ofNat 32 (i 1).val) 0#32)) 0#32) = 1#1
/-- It holds at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-! ## The kernel body on any staging memrefs -/

/-- One staging buffer of each output window, through which its contents are stated (the choice does not matter). -/
abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
/-- Each window's current staging memref at point `t`, and its wholeness. -/
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)

set_option maxHeartbeats 1000000 in
/-- CASE A (the first column tile). What the body's stores leave in the two outputs' staging memrefs, as pieces (last
    first), with the proof that on whole staging memrefs (the four inputs' at their contents, the two outputs' at anything)
    the body runs to the continuation holding the inputs' as they were and each output's buffer with its pieces written:
    the running extrema are reset (to the largest finite value and to its negative) and then met with this tile's. -/
noncomputable def kernelRun1_A (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__triplet_kernel i arg2 harg2 arg3 harg3 arg4 harg4 arg5 harg5 arg6 harg6 arg7 harg7) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

set_option maxHeartbeats 1000000 in
/-- CASE B (a later column tile). The same with the conditional not taken: the two outputs' buffers are handed in at the
    running extrema the point before left (`xo4`, `xo5`) and met with this tile's. -/
noncomputable def kernelRun1_B (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__triplet_kernel i arg2 harg2 arg3 harg3 arg4 harg4 arg5 harg5 arg6 harg6 arg7 harg7) K } := by
  refine ⟨?_, ?_, fun E K => ?run⟩
  case run =>
    simp only [cc1__triplet_kernel_eq_skeleton]; unfold cc1__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-! ## What each case leaves in the outputs' buffers -/

/-- Case A's pieces for the running minimum tile its block (two whole stores), so they cover it. -/
theorem cover1_A_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S512x1.size (by sl_kernel_rfl) y
/-- Case A's pieces for the running maximum tile its block, so they cover it. -/
theorem cover1_A_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S512x1.size (by sl_kernel_rfl) y

/-- What case A leaves in the running minimum's staging buffer: its pieces read back over junk. -/
def out1_A_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) : Vec F S512x1 .f32 :=
  VO1_4.read (Elt F) (VO1_4.writes (Elt F) VO1_4.junk (kernelRun1_A c i arg2 harg2 arg3 harg3 arg4 harg4 arg5 harg5 arg6 harg6 arg7 harg7 hc0 x0 x1 x2 x3).1)
/-- What case A leaves in the running maximum's staging buffer. -/
def out1_A_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) : Vec F S512x1 .f32 :=
  VO1_5.read (Elt F) (VO1_5.writes (Elt F) VO1_5.junk (kernelRun1_A c i arg2 harg2 arg3 harg3 arg4 harg4 arg5 harg5 arg6 harg6 arg7 harg7 hc0 x0 x1 x2 x3).2.1)

/-- Case B's pieces for the running minimum tile its block (one whole store), so they cover it. -/
theorem cover1_B_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) (y : S512x1.Idx) :
    ∃ pc ∈ (kernelRun1_B c i arg2 harg2 arg3 harg3 arg4 harg4 arg5 harg5 arg6 harg6 arg7 harg7 hc0 x0 x1 x2 x3 xo4 xo5).1, y ∈ pc.1.set :=
  View.cover_of_tiledL (kernelRun1_B c i arg2 harg2 arg3 harg3 arg4 harg4 arg5 harg5 arg6 harg6 arg7 harg7 hc0 x0 x1 x2 x3 xo4 xo5).1 S512x1.size (by sl_kernel_rfl) y
/-- Case B's pieces for the running maximum tile its block, so they cover it. -/
theorem cover1_B_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) (y : S512x1.Idx) :
    ∃ pc ∈ (kernelRun1_B c i arg2 harg2 arg3 harg3 arg4 harg4 arg5 harg5 arg6 harg6 arg7 harg7 hc0 x0 x1 x2 x3 xo4 xo5).2.1, y ∈ pc.1.set :=
  View.cover_of_tiledL (kernelRun1_B c i arg2 harg2 arg3 harg3 arg4 harg4 arg5 harg5 arg6 harg6 arg7 harg7 hc0 x0 x1 x2 x3 xo4 xo5).2.1 S512x1.size (by sl_kernel_rfl) y

/-- What case B leaves in the running minimum's staging buffer: its pieces read back over junk. -/
def out1_B_4 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) : Vec F S512x1 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xo5).1)
/-- What case B leaves in the running maximum's staging buffer. -/
def out1_B_5 (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 : Vec F S512x1 .f32) (xo5 : Vec F S512x1 .f32) : Vec F S512x1 .f32 :=
  VO1_5.read (Elt F) (VO1_5.writes (Elt F) VO1_5.junk (kernelRun1_B c i arg2 harg2 arg3 harg3 arg4 harg4 arg5 harg5 arg6 harg6 arg7 harg7 hc0 x0 x1 x2 x3 xo4 xo5).2.1)

/-! ## What the outputs hold after each point -/

/-- THE RUNNING EXTREMA. What the two outputs' staging buffers hold (minimum, maximum) after the body at position `n`:
    at a first column tile (`n % 16 = 0`) case A's contents, else case B's over what this leaves at `n - 1` (the buffers
    are not written back between). -/
def outsAt1 (c : Dev nD) : (n : ℕ) → n < cfg1.N → Vec F S512x1 .f32 × Vec F S512x1 .f32
  | 0, hn =>
      (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩),
       out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- `outsAt1` at a point of case A: that case's contents. -/
theorem outsAt1_A (c : Dev nD) (t : Fin cfg1.N) (h0 : t.val % 16 = 0) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 16 = 0) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the second call's pipeline on core `c`: the arrays as the region finds them (`V`); after the body
    at point `t` each input's buffer at its block and the two outputs' at `outsAt1`; the class's invariant; nothing owed;
    windows 0 and 1 read ONE array, each through half of it, the other windows hold theirs whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q := fun w => match w with
    | ⟨0, _⟩ => fullShare.left
    | ⟨1, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of case B output 4's current staging buffer holds what the body left at the point before: the point is not
    the first, the buffer was not written back between, the window is live and uncut. -/
theorem before1_4_B (c : Dev nD) (t : Fin cfg1.N) (h0 : ¬t.val % 16 = 0) (d) :
    (dat1 V c).before 4 t d = (outsAt1 V c (t.val - 1) (Nat.lt_of_le_of_lt (Nat.sub_le _ _) t.isLt)).1 := by
  have hN : t.val < 256 := lt_of_lt_of_eq t.isLt (show cfg1.N = 256 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a point of case B output 5's current staging buffer holds what the body left at the point before: the point is not
    the first, the buffer was not written back between, the window is live and uncut. -/
theorem before1_5_B (c : Dev nD) (t : Fin cfg1.N) (h0 : ¬t.val % 16 = 0) (d) :
    (dat1 V c).before 5 t d = (outsAt1 V c (t.val - 1) (Nat.lt_of_le_of_lt (Nat.sub_le _ _) t.isLt)).2 := by
  have hN : t.val < 256 := lt_of_lt_of_eq t.isLt (show cfg1.N = 256 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' memrefs hold their blocks; the closed form says which case the point is in; in case B
    each output holds what the point before left; so the run applies; the invariant passes through unread; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 256 := lt_of_lt_of_eq t.isLt (show cfg1.N = 256 from N_1)
  by_cases h0 : t.val % 16 = 0
  · rw [outsAt1_A V c t h0]
    dsimp only
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _)
  · rw [outsAt1_B V c t h0]
    simp only [before1_4_B V c t h0, before1_5_B V c t h0]
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.SharedArrays.lean ====
/-
  One array read through two input windows of the second call: the buffers behind the windows' arrays, each whole at
  the full share, are the six windows' arrays at their shares (the two windows on the scaled rows each at half of that
  buffer), and back.
-/
import proofs.«116771_j2688649527615_1_alg».proof.Proof.Gen.KernelIdeal.Launch
import Idealize.ShloMosaic.Lib.Pipeline.FrameBody

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3_0) ↦{fullShare} Vc main_v3_0)
          ∗ (((c : Thread nD τ).loc main_v3_1) ↦{fullShare} Vc main_v3_1)) := by
  unfold Pipeline.arrBufs
  rw [BI.bigSep_eq_bigSepL_of_eq [main_v0, main_v1, main_v2, main_v3_0, main_v3_1] (by decide) (by decide)]
  rfl

theorem arrays1_eq (c : Dev nD) (dat : Dat τ (Elt F) Unit ℕ (UR sig nD τ) ℕ cfg1 c)
    (G : (w : Fin cfg1.W) → Buf (Elt F) ((cfg1.win w).arr.view.loc (c.tc : Thread nD τ))) :
    (dat.arrays G : sProp 𝕄)
      = iprop((((c : Thread nD τ).loc main_v0) ↦{dat.share 0} G 0) ∗ (((c : Thread nD τ).loc main_v0) ↦{dat.share 1} G 1)
          ∗ (((c : Thread nD τ).loc main_v1) ↦{dat.share 2} G 2) ∗ (((c : Thread nD τ).loc main_v2) ↦{dat.share 3} G 3)
          ∗ (((c : Thread nD τ).loc main_v3_0) ↦{dat.share 4} G 4) ∗ (((c : Thread nD τ).loc main_v3_1) ↦{dat.share 5} G 5)) := by
  unfold Dat.arrays
  rw [bigSep_W1]
  rw [(arr_whole1 0).set_eq_univ, (arr_whole1 2).set_eq_univ, (arr_whole1 3).set_eq_univ, (arr_whole1 4).set_eq_univ, (arr_whole1 5).set_eq_univ]

/-- The buffers behind the second call's arrays, whole at the full share at contents `Vc`, are its six windows'
    arrays at contents that agree with `Vc`: the buffer of scaled rows is split into its two halves, one per window
    that reads it. -/
theorem arrays_of_bufs1 (c : Dev nD) (dat : Dat τ (Elt F) Unit ℕ (UR sig nD τ) ℕ cfg1 c)
    (hs0 : dat.share 0 = fullShare.left) (hs1 : dat.share 1 = fullShare.right) (hs2 : dat.share 2 = fullShare)
    (hs3 : dat.share 3 = fullShare) (hs4 : dat.share 4 = fullShare) (hs5 : dat.share 5 = fullShare)
    (Vc : (b : Ref sig .tc) → Buf (Elt F) ((c : Thread nD τ).loc b))
    (G : (w : Fin cfg1.W) → Buf (Elt F) ((cfg1.win w).arr.view.loc (c.tc : Thread nD τ)))
    (hG : ∀ w, G w = Vc (Pipeline.arrRef spec1 w)) :
    (Pipeline.arrBufs (Ix := Unit) (Name := ℕ) (U := UR sig nD τ) (Lvl := ℕ) spec1 c Vc : sProp 𝕄) ⊢ dat.arrays G := by
  rw [arrBufs1_eq, arrays1_eq, hs0, hs1, hs2, hs3, hs4, hs5, hG 0, hG 1, hG 2, hG 3, hG 4, hG 5]
  iintro ⟨H0, H1, H2, H3, H4⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H4

/-- And back: the two halves rejoin. -/
theorem bufs_of_arrays1 (c : Dev nD) (dat : Dat τ (Elt F) Unit ℕ (UR sig nD τ) ℕ cfg1 c)
    (hs0 : dat.share 0 = fullShare.left) (hs1 : dat.share 1 = fullShare.right) (hs2 : dat.share 2 = fullShare)
    (hs3 : dat.share 3 = fullShare) (hs4 : dat.share 4 = fullShare) (hs5 : dat.share 5 = fullShare)
    (Vc : (b : Ref sig .tc) → Buf (Elt F) ((c : Thread nD τ).loc b))
    (G : (w : Fin cfg1.W) → Buf (Elt F) ((cfg1.win w).arr.view.loc (c.tc : Thread nD τ)))
    (hG : ∀ w, G w = Vc (Pipeline.arrRef spec1 w)) :
    (dat.arrays G : sProp 𝕄) ⊢ Pipeline.arrBufs (Ix := Unit) (Name := ℕ) (U := UR sig nD τ) (Lvl := ℕ) spec1 c Vc := by
  rw [arrBufs1_eq, arrays1_eq, hs0, hs1, hs2, hs3, hs4, hs5, hG 0, hG 1, hG 2, hG 3, hG 4, hG 5]
  iintro ⟨Ha, Hb, H1, H2, H3, H4⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  iexact H4

end Cert.KernelIdeal.Fr

end
-- ==== Proof.MainRun.lean ====
/-
  The kernel program's run, region by region: the scaling call's arrays split out of the unscoped buffers and put back
  with the scaled rows in place; the label reshapes; the extrema call entered with the scaled rows' buffer read through
  two windows at half a share each and left with its two result columns in place; the closing host reduction.
  Stated for any float values: the result buffer ends at the host tail's term of what the regions leave, the two
  argument buffers as launched.
-/
import proofs.«116771_j2688649527615_1_alg».proof.Proof.NormRegion
import proofs.«116771_j2688649527615_1_alg».proof.Proof.TripletRegion
import proofs.«116771_j2688649527615_1_alg».proof.Proof.SharedArrays
import proofs.«116771_j2688649527615_1_alg».proof.Proof.RunCond
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- The scaling call's entry contents: the launch memory. -/
abbrev E0 (c : Dev nD) (b : Ref sig .tc) : Buf (Elt F) ((c : Thread nD τ).loc b) := V0 m c b

/-- What the scaling call leaves in the buffer of scaled rows. -/
def o1 (c : Dev nD) : Buf (Elt F) ((c : Thread nD τ).loc main_v0) := (dat0 (E0 m) c).arrAt 1 cfg0.N

/-- The regions' leavings with only the scaling call's named (what the extrema call's entry contents read). -/
def outs1 : Outs (F := F) := fun _ r c => Function.update (V0 m c) main_v0 (o1 m c) r

/-- The extrema call's entry contents: the scaled rows in place, then the two label reshapes. -/
abbrev E1 (c : Dev nD) (b : Ref sig .tc) : Buf (Elt F) ((c : Thread nD τ).loc b) := V2 m (outs1 m) c b

/-- What the extrema call leaves in its two result columns. -/
def o4 (c : Dev nD) : Buf (Elt F) ((c : Thread nD τ).loc main_v3_0) := (dat1 (E1 m) c).arrAt 4 cfg1.N
def o5 (c : Dev nD) : Buf (Elt F) ((c : Thread nD τ).loc main_v3_1) := (dat1 (E1 m) c).arrAt 5 cfg1.N

/-- The regions' leavings, all named. -/
def outsK : Outs (F := F) := fun j r c =>
  if j = 1 then Function.update (V0 m c) main_v0 (o1 m c) r
  else Function.update (Function.update (V2 m (outs1 m) c) main_v3_0 (o4 m c)) main_v3_1 (o5 m c) r

theorem outs1_v0 (c : Dev nD) : outs1 m 1 main_v0 c = o1 m c := by
  unfold outs1; exact Function.update_self ..
theorem outsK_v0 (c : Dev nD) : outsK m 1 main_v0 c = o1 m c := by
  unfold outsK; rw [if_pos rfl]; exact Function.update_self ..
theorem outsK_v3_0 (c : Dev nD) : outsK m 3 main_v3_0 c = o4 m c := by
  unfold outsK; rw [if_neg (by decide)]
  rw [Function.update_of_ne (StableHlo.devRef_ne_of_ne (show (main_v3_0 : Ref sig .tc) ≠ main_v3_1 by decide))]
  exact Function.update_self ..
theorem outsK_v3_1 (c : Dev nD) : outsK m 3 main_v3_1 c = o5 m c := by
  unfold outsK; rw [if_neg (by decide)]; exact Function.update_self ..

theorem V1_outsK (c : Dev nD) : V1 m (outsK m) c = V1 m (outs1 m) c := by
  show Function.update (V0 m c) main_v0 (outsK m 1 main_v0 c) = Function.update (V0 m c) main_v0 (outs1 m 1 main_v0 c)
  rw [outsK_v0, outs1_v0]
theorem V2_outsK (c : Dev nD) : V2 m (outsK m) c = V2 m (outs1 m) c :=
  congrArg (StableHlo.after hostOps1) (V1_outsK m c)

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0

/-- Beside the buffers through every segment: the core's generator register at some state and its dues, none. -/
abbrev R (c : Dev nD) : sProp 𝕄 := iprop((∃ r, prngReg c r) ∗ ∃ W, owes (c : Thread nD τ) (0 : CellTallies nD τ sig Unit) W)

/-! ## The scaling call as a segment -/

theorem hF0 (c : Dev nD) : ∀ w : Fin cfg0.W, (pdats m 0 c).arrAt w cfg0.N = V1 m (outsK m) c (Pipeline.arrRef spec0 w)
  | ⟨0, _⟩ => ((pdats m 0 c).arrAt_in 0 rfl _).trans ((A_eq0 (E0 m) c 0).trans (V1_of m (outsK m) c main_arg0 (by decide)).symm)
  | ⟨1, _⟩ => by
      show o1 m c = Function.update (V0 m c) main_v0 (outsK m 1 main_v0 c) main_v0
      rw [Function.update_self]; exact (outsK_v0 m c).symm

theorem hrest0 (c : Dev nD) : ∀ b, b ∉ Finset.univ.image (Pipeline.arrRef spec0) → V1 m (outsK m) c b = V0 m c b :=
  fun b hb => V1_of m (outsK m) c b (fun h => hb (Finset.mem_image.mpr ⟨1, Finset.mem_univ _, (List.mem_singleton.mp h).symm⟩))

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V1 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The extrema call as a segment -/

theorem share1_0 (c : Dev nD) : (pdats m 1 c).share 0 = fullShare.left := rfl
theorem share1_1 (c : Dev nD) : (pdats m 1 c).share 1 = fullShare.right := rfl
theorem share1_2 (c : Dev nD) : (pdats m 1 c).share 2 = fullShare := rfl
theorem share1_3 (c : Dev nD) : (pdats m 1 c).share 3 = fullShare := rfl
theorem share1_4 (c : Dev nD) : (pdats m 1 c).share 4 = fullShare := rfl
theorem share1_5 (c : Dev nD) : (pdats m 1 c).share 5 = fullShare := rfl

/-- At entry each window's array is the entry contents' buffer. -/
theorem hG1_entry (c : Dev nD) (w : Fin cfg1.W) : (pdats m 1 c).arrAt w 0 = E1 m c (Pipeline.arrRef spec1 w) :=
  (rfl : (pdats m 1 c).arrAt w 0 = (pdats m 1 c).A w).trans (A_eq1 (E1 m) c w)

/-- The contents after the extrema call, read at the TensorCore's references. -/
abbrev X3 (c : Dev nD) (b : Ref sig .tc) : Buf (Elt F) ((c : Thread nD τ).loc b) := V3 m (outsK m) c b

theorem X3_of (c : Dev nD) (b : Ref sig .tc) (h : b ∉ ([main_v3_0, main_v3_1] : List (Ref sig .tc))) : X3 m c b = E1 m c b :=
  (V3_of m (outsK m) c b h).trans (congrFun (V2_outsK m c) b)

/-- The valuation after the extrema call at its two result columns: what the call leaves there. -/
theorem V3_at_v3_0 (outs : Outs (F := F)) (c : Dev nD) : V3 m outs c main_v3_0 = outs 3 main_v3_0 c := by
  show Function.update (Function.update (V2 m outs c) main_v3_0 (outs 3 main_v3_0 c)) main_v3_1 (outs 3 main_v3_1 c) main_v3_0 = _
  rw [Function.update_of_ne (StableHlo.devRef_ne_of_ne (show (main_v3_0 : Ref sig .tc) ≠ main_v3_1 by decide))]
  exact Function.update_self ..
theorem V3_at_v3_1 (outs : Outs (F := F)) (c : Dev nD) : V3 m outs c main_v3_1 = outs 3 main_v3_1 c := by
  show Function.update (Function.update (V2 m outs c) main_v3_0 (outs 3 main_v3_0 c)) main_v3_1 (outs 3 main_v3_1 c) main_v3_1 = _
  exact Function.update_self ..

/-- At exit each window's array holds what the last valuation says: the inputs as entered, the two result columns what
    the write-backs left. -/
theorem hG1_exit (c : Dev nD) : ∀ w : Fin cfg1.W, (pdats m 1 c).arrAt w cfg1.N = X3 m c (Pipeline.arrRef spec1 w)
  | ⟨0, _⟩ => ((pdats m 1 c).arrAt_in 0 rfl _).trans ((A_eq1 (E1 m) c 0).trans (X3_of m c main_v0 (by decide)).symm)
  | ⟨1, _⟩ => ((pdats m 1 c).arrAt_in 1 rfl _).trans ((A_eq1 (E1 m) c 1).trans (X3_of m c main_v0 (by decide)).symm)
  | ⟨2, _⟩ => ((pdats m 1 c).arrAt_in 2 rfl _).trans ((A_eq1 (E1 m) c 2).trans (X3_of m c main_v1 (by decide)).symm)
  | ⟨3, _⟩ => ((pdats m 1 c).arrAt_in 3 rfl _).trans ((A_eq1 (E1 m) c 3).trans (X3_of m c main_v2 (by decide)).symm)
  | ⟨4, _⟩ => by
      show o4 m c = V3 m (outsK m) c main_v3_0
      rw [V3_at_v3_0, outsK_v3_0]
  | ⟨5, _⟩ => by
      show o5 m c = V3 m (outsK m) c main_v3_1
      rw [V3_at_v3_1, outsK_v3_1]

theorem hrest1 (c : Dev nD) (b : Ref sig .tc) (hb : b ∉ Finset.univ.image (Pipeline.arrRef spec1)) : X3 m c b = E1 m c b :=
  X3_of m c b (fun h => hb (by
    rcases List.mem_cons.mp h with h | h
    · exact Finset.mem_image.mpr ⟨4, Finset.mem_univ _, h.symm⟩
    · exact Finset.mem_image.mpr ⟨5, Finset.mem_univ _, (List.mem_singleton.mp h).symm⟩))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V2 m (outsK m) c) ∗ R c)
  post c := iprop(StableHlo.held (c : Thread nD τ) (Pipeline.ucRefs τ sig) (V3 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V2_outsK]
    have hub : (StableHlo.held (c : Thread nD τ) (Pipeline.ucRefs τ sig) (V2 m (outs1 m) c) : sProp 𝕄)
        = iprop(Pipeline.arrBufs (Ix := Unit) (Name := ℕ) (U := UR sig nD τ) (Lvl := ℕ) spec1 c (E1 m c) ∗ Pipeline.unscopedRest spec1 c (E1 m c)) := by
      rw [← Pipeline.unscopedBufs_held c (V2 m (outs1 m) c)]
      exact Pipeline.unscopedBufs_split₀ (cfgs) (1 : Fin 2) winFacts₀1.arr_unscoped c (E1 m c)
    rw [hub]
    iintro ⟨⟨⟨Hab, Hrest⟩, Hp, HO⟩, -, -⟩
    ihave Ha := (arrays_of_bufs1 c (pdats m 1 c) (share1_0 m c) (share1_1 m c) (share1_2 m c) (share1_3 m c) (share1_4 m c) (share1_5 m c)
      (E1 m c) ((pdats m 1 c).arrAt · 0) (hG1_entry m c)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (V3 m (outsK m) c) : sProp 𝕄)
        = iprop(Pipeline.arrBufs (Ix := Unit) (Name := ℕ) (U := UR sig nD τ) (Lvl := ℕ) spec1 c (X3 m c) ∗ Pipeline.unscopedRest spec1 c (X3 m c)) := by
      rw [← Pipeline.unscopedBufs_held c (V3 m (outsK m) c)]
      exact Pipeline.unscopedBufs_split₀ (cfgs) (1 : Fin 2) winFacts₀1.arr_unscoped c (X3 m c)
    have hr : (Pipeline.unscopedRest (Ix := Unit) (Name := ℕ) (U := UR sig nD τ) (Lvl := ℕ) spec1 c (E1 m c) : sProp 𝕄)
        = Pipeline.unscopedRest spec1 c (X3 m c) := by
      unfold Pipeline.unscopedRest
      exact BI.bigSep_congr fun b hb => by rw [hrest1 m c b (Finset.mem_sdiff.mp hb).2]
    rw [hub]
    iintro ⟨Ha, HO, HY, Hrest⟩
    ihave Hab := (bufs_of_arrays1 c (pdats m 1 c) (share1_0 m c) (share1_1 m c) (share1_2 m c) (share1_3 m c) (share1_4 m c) (share1_5 m c)
      (X3 m c) ((pdats m 1 c).arrAt · cfg1.N) (hG1_exit m c)) $$ Ha
    ihave Hrest' := (Entails.of_eq hr) $$ Hrest
    imodintro
    isplitl [Hab Hrest']
    · isplitl [Hab]; · iexact Hab
      iexact Hrest'
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates; the result buffer ends at the
    closing host reduction's term of what the two calls leave, the argument buffers as launched. -/
theorem run_main : θ_run defs (onTc (τ := τ) (main (F := F))) ⟨m, fun _ => 0, ρ⟩ (fun r => ∀ c : Dev nD,
      r.2.mem ((c.tc : Thread nD τ).loc main_v11) = V6 m (outsK m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (emb₁ : Emb (UR sig nD τ) 𝕄) () 𝒱₀ L lv (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

end Cert.KernelIdeal.Fr

end
-- ==== Proof.Spec.lean ====
/-
  The mathematics both programs compute, over literal shapes and plain indices, with no program imported.

  For features x : f32[8192, 256] (read at the extended reals) and labels l : i32[8192]:
    every row is scaled to unit length, sim(r, k) is the inner product of the scaled rows r and k,
    pos(r) = min over k with l k = l r of sim(r, k)      (the other columns count as the largest finite f32, "big"),
    neg(r) = max over k with l k ≠ l r of sim(r, k)      (the other columns count as -big),
    loss   = (Σ_r max(neg r - pos r + 1/4, 0)) / 8192.
  The kernel scales a row by x · rsqrt(Σ x²) and takes the two extrema tile by tile (16 tiles of 512 columns),
  starting the running minimum at big and the running maximum at -big; the reference scales by x / sqrt(Σ x²)
  and takes the extrema over all 8192 columns at once from +∞ and -∞.
-/
import Idealize.ShloMosaic.PureOps.Ideal
import Idealize.ShloMosaic.Lib.ValueIdx

noncomputable section

namespace Cert.Spec

open Idealize.ShloMosaic Idealize.ShloMosaic.ValueIdx
open scoped BigOperators

/-- An [8192, 256] array of extended reals (the features, or the scaled rows). -/
abbrev Feat : Type := (⟨2, ![8192, 256]⟩ : Shape).Idx → EReal
/-- The labels as a vector, as a column [8192, 1] and as a row [1, 8192] of 32-bit words. -/
abbrev Lab : Type := (⟨1, ![8192]⟩ : Shape).Idx → BitVec 32
abbrev LabCol : Type := (⟨2, ![8192, 1]⟩ : Shape).Idx → BitVec 32
abbrev LabRow : Type := (⟨2, ![1, 8192]⟩ : Shape).Idx → BitVec 32

/-- The f32 words both programs carry, read at the extended reals (never evaluated unless a law needs their value). -/
def big : EReal := Ideal.ofBits .f32 0x7F7FFFFF#32
def nbig : EReal := Ideal.ofBits .f32 0xFF7FFFFF#32
def quarter : EReal := Ideal.ofBits .f32 0x3E800000#32
def zero32 : EReal := Ideal.ofBits .f32 0x00000000#32
def count : EReal := Ideal.ofBits .f32 0x46000000#32

/-- Σ_d x[r, d]²: the squared length of row r. -/
def rowSq (x : Feat) (r : Fin 8192) : EReal := ∑ d : Fin 256, x (ix2 r d) * x (ix2 r d)

/-- The label column and row the kernel's second call reads: l at the row index, l at the column index. -/
def colOf (l : Lab) : LabCol := fun j => l (ix1 (j 0))
def rowOf (l : Lab) : LabRow := fun j => l (ix1 (j 1))

/-- The closing reduction both programs share: the mean over rows of max(neg - pos + 1/4, 0), the sum started at the
    zero word and divided by the word 8192.0. -/
def lossOf (pos neg : Fin 8192 → EReal) : EReal :=
  Ideal.div (zero32 + ∑ r : Fin 8192, max (neg r - pos r + quarter) zero32) count

/-! ## The kernel's side -/

/-- The kernel's scaled entry: x[r, d] · rsqrt(Σ_d x[r, d]²). -/
def unitK (x : Feat) (r : Fin 8192) (d : Fin 256) : EReal := x (ix2 r d) * Ideal.rsqrt (rowSq x r)
/-- The scaled rows as an array. -/
def unitArr (x : Feat) : Feat := fun j => unitK x (j 0) (j 1)

/-- The inner product of rows r and k of an [8192, 256] array. -/
def dot (y : Feat) (r k : Fin 8192) : EReal := ∑ d : Fin 256, y (ix2 r d) * y (ix2 k d)

/-- What column k contributes to row r's minimum (its inner product when the labels agree, else big) and to its
    maximum (-big when they agree, else the inner product). -/
def posCand (y : Feat) (lc : LabCol) (lr : LabRow) (r k : Fin 8192) : EReal :=
  if lc (ix2 r 0) = lr (ix2 0 k) then dot y r k else big
def negCand (y : Feat) (lc : LabCol) (lr : LabRow) (r k : Fin 8192) : EReal :=
  if lc (ix2 r 0) = lr (ix2 0 k) then nbig else dot y r k

/-- Column k' of tile j (512 columns a tile; the remainder keeps the index in range for every j, and for j < 16 it is
    j · 512 + k'). -/
def col (j : ℕ) (k' : Fin 512) : Fin 8192 := ⟨(j * 512 + k'.val) % 8192, Nat.mod_lt _ (by norm_num)⟩

/-- One tile's minimum from +∞ and maximum from -∞. -/
def tileMin (y : Feat) (lc : LabCol) (lr : LabRow) (r : Fin 8192) (j : ℕ) : EReal :=
  (Finset.univ : Finset (Fin 512)).fold min (⊤ : EReal) (fun k' => posCand y lc lr r (col j k'))
def tileMax (y : Feat) (lc : LabCol) (lr : LabRow) (r : Fin 8192) (j : ℕ) : EReal :=
  (Finset.univ : Finset (Fin 512)).fold max (⊥ : EReal) (fun k' => negCand y lc lr r (col j k'))

/-- The running extrema after tiles 0 … n: started at big (at -big) and met with one tile after the other. -/
def runMin (y : Feat) (lc : LabCol) (lr : LabRow) (r : Fin 8192) : ℕ → EReal
  | 0 => min big (tileMin y lc lr r 0)
  | n + 1 => min (runMin y lc lr r n) (tileMin y lc lr r (n + 1))
def runMax (y : Feat) (lc : LabCol) (lr : LabRow) (r : Fin 8192) : ℕ → EReal
  | 0 => max nbig (tileMax y lc lr r 0)
  | n + 1 => max (runMax y lc lr r n) (tileMax y lc lr r (n + 1))

/-- What the kernel's second call leaves for row r: the running extrema after all 16 tiles. -/
def kpos (y : Feat) (lc : LabCol) (lr : LabRow) (r : Fin 8192) : EReal := runMin y lc lr r 15
def kneg (y : Feat) (lc : LabCol) (lr : LabRow) (r : Fin 8192) : EReal := runMax y lc lr r 15

/-- The kernel's result. -/
def kernelLoss (x : Feat) (l : Lab) : EReal :=
  lossOf (kpos (unitArr x) (colOf l) (rowOf l)) (kneg (unitArr x) (colOf l) (rowOf l))

/-! ## The reference's side -/

/-- The reference's scaled entry: x[r, d] / sqrt(0 + Σ_d x[r, d]²) (the host's sum starts at the zero word). -/
def unitR (x : Feat) (r : Fin 8192) (d : Fin 256) : EReal :=
  Ideal.div (x (ix2 r d)) (Ideal.sqrt (zero32 + rowSq x r))

/-- Its similarity: the inner product of the scaled rows r and k. -/
def simR (x : Feat) (r k : Fin 8192) : EReal := ∑ d : Fin 256, unitR x r d * unitR x k d

/-- Its extrema over all 8192 columns at once, from +∞ and -∞; the masked columns count as big and as -big. -/
def rpos (x : Feat) (l : Lab) (r : Fin 8192) : EReal :=
  (Finset.univ : Finset (Fin 8192)).fold min (⊤ : EReal) (fun k => if l (ix1 r) = l (ix1 k) then simR x r k else big)
def rneg (x : Feat) (l : Lab) (r : Fin 8192) : EReal :=
  (Finset.univ : Finset (Fin 8192)).fold max (⊥ : EReal) (fun k => if l (ix1 r) = l (ix1 k) then -big else simR x r k)

/-- The reference's result. -/
def refLoss (x : Feat) (l : Lab) : EReal := lossOf (rpos x l) (rneg x l)

end Cert.Spec

end
-- ==== Proof.NormValue.lean ====
/-
  What the first call leaves in the array of scaled rows, on the extended reals.

  The call walks the [8192, 256] features in 8 blocks of 1024 rows. On a block it squares every entry, sums each row's
  256 squares, takes the reciprocal square root of each sum, and multiplies every entry of the row by it; the store
  narrows to bf16, which on the extended reals is the identity. Block `t` is rows `1024 t … 1024 t + 1023` of the
  array, for the input and for the output alike, so what point `t` writes back is block `t` of ONE function of the
  features, `(r, d) ↦ x[r, d] · rsqrt(Σ_e x[r, e]²)`; the 8 blocks cover the array (row `r` lies in block `r / 1024`),
  so the array ends holding that function.
-/
import proofs.«116771_j2688649527615_1_alg».proof.Proof.NormRegion
import proofs.«116771_j2688649527615_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

/-! ## Two layout readings at an index: a column kept as a second unit axis, and that column spread over the lanes -/

/-- A vector `[a]` cast to the column `[a, 1]` reads, at `(i, u)`, the vector at `i`. -/
theorem norm_shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem norm_broadcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index -/

/-- The index the lane sum inserts for row `p` and lane `e` is `(p, e)`. -/
theorem norm_lift_row_lane (p : Fin 1024) (e : Fin 256) :
    (reduces_S1024x256_S1024.lift (ix1 p) e : S1024x256.Idx) = ix2 p e :=
  funext fun a => Fin.ext (match a with | ⟨0, _⟩ => rfl | ⟨1, _⟩ => rfl)

/-- Entry `(p, d)` of what the body stores: the loaded entry times the reciprocal square root of its row's sum of
    squares (the narrowing to bf16 changes nothing on the extended reals). -/
theorem norm_pay_apply (x0 : Vec Ideal S1024x256 .f32) (p : Fin 1024) (d : Fin 256) :
    k0_pay1 (F := Ideal) x0 (ix2 p d) = x0 (ix2 p d) * Ideal.rsqrt (∑ e : Fin 256, x0 (ix2 p e) * x0 (ix2 p e)) := by
  unfold k0_pay1
  show x0 (ix2 p d) * (broadcastTo S1024x256 (rsqrt (F := Ideal) (shapeCast S1024x1 (multiReduction (F := Ideal) .add [1] S1024 (mulf x0 x0) 0x00000000#32 reduces_S1024x256_S1024 (.inl rfl) rfl) shapeCasts_S1024_S1024x1)) broadcasts_S1024x1_S1024x256 : FVec Ideal S1024x256 .f32) (ix2 p d) = _
  refine congrArg (x0 (ix2 p d) * ·) ?_
  refine (norm_broadcast_col_apply _ broadcasts_S1024x1_S1024x256 p d).trans ?_
  show Ideal.rsqrt (shapeCast S1024x1 (multiReduction (F := Ideal) .add [1] S1024 (mulf x0 x0) 0x00000000#32 reduces_S1024x256_S1024 (.inl rfl) rfl) shapeCasts_S1024_S1024x1 (ix2 p (0 : Fin 1))) = _
  refine congrArg Ideal.rsqrt ?_
  refine (norm_shapeCast_col_apply _ shapeCasts_S1024_S1024x1 p (0 : Fin 1)).trans ?_
  refine (Ideal.multiReduction_add_single (φ := .f32) (mulf x0 x0) 0x00000000#32 reduces_S1024x256_S1024 (.inl rfl) rfl (ix1 p)).trans ?_
  refine Finset.sum_congr rfl fun e _ => ?_
  show x0 (reduces_S1024x256_S1024.lift (ix1 p) e) * x0 (reduces_S1024x256_S1024.lift (ix1 p) e) = _
  rw [norm_lift_row_lane p e]

/-! ## The blocks of the first call, read off the arrays -/

variable (V : (c : Dev nD) → (b : Ref sig .tc) → Buf (Elt Ideal) ((c : Thread nD τ).loc b))

theorem norm_zeros2 : (![0, 0] : Fin 2 → Nat) = fun _ => 0 := funext fun a => by fin_cases a <;> rfl

/-- The features as the region finds them, as an [8192, 256] array of extended reals. -/
abbrev normFeat (c : Dev nD) : Cert.Spec.Feat := V c main_arg0

/-- Both windows' block index at point `t` is `(t, 0)`: point `t` works on rows `1024 t … 1024 t + 1023`, all lanes. -/
theorem norm_index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry `(p, d)` of the input block at point `t` is the features' entry `(1024 t + p, d)`. -/
theorem iblk0_apply (c : Dev nD) (t : Fin cfg0.N) (p : Fin 1024) (d : Fin 256) (r : Fin 8192)
    (hr : r.val = t.val * 1024 + p.val) :
    (iblk0 V c 0 t : Vec Ideal S1024x256 .f32) (ix2 p d) = normFeat V c (ix2 r d) := by
  obtain ⟨e0, e1, -, -⟩ := norm_index_facts t
  unfold iblk0
  rw [View.read_apply]
  show V c main_arg0 _ = V c main_arg0 _
  refine congrArg (V c main_arg0) ?_
  funext a
  apply Fin.ext
  match a with
  | ⟨0, _⟩ => show win0_0.index t (0 : Fin 2) * 1024 + 1 * p.val = r.val; rw [e0, hr]; omega
  | ⟨1, _⟩ => show win0_0.index t (1 : Fin 2) * 256 + 1 * d.val = d.val; rw [e1]; omega

/-- Where entry `(p, d)` of the output block at point `t` sits in the array: `(1024 t + p, d)`. -/
theorem norm_oblk_emb (t : Fin cfg0.N) (p : Fin 1024) (d : Fin 256) (r : Fin 8192) (hr : r.val = t.val * 1024 + p.val) :
    (((cfg0.win 1).blk t).view.emb (ix2 p d) : S8192x256.Idx) = ix2 r d := by
  obtain ⟨-, -, e0, e1⟩ := norm_index_facts t
  funext a
  apply Fin.ext
  match a with
  | ⟨0, _⟩ => show win0_1.index t (0 : Fin 2) * 1024 + 1 * p.val = r.val; rw [e0, hr]; omega
  | ⟨1, _⟩ => show win0_1.index t (1 : Fin 2) * 256 + 1 * d.val = d.val; rw [e1]; omega

/-! ## What a point writes back, and the array after the run -/

/-- What point `t` writes back is its block of the scaled rows of the features. -/
theorem norm_flushed_eq (c : Dev nD) (t : Fin cfg0.N) :
    (dat0 (F := Ideal) V c).flushed 1 t = ((cfg0.win 1).blk t).view.read (Elt Ideal) (Cert.Spec.unitArr (normFeat V c)) := by
  show (cfg0.win 1).cut (grid0.coords t) ((dat0 V c).after 1 t) = _
  rw [after0_1]
  unfold out0_1
  rw [View.canon_unit_zero norm_zeros2]
  simp only [View.ld_unit_zero (S := S1024x256) norm_zeros2]
  funext j
  obtain ⟨p, d, rfl⟩ : ∃ (p : Fin 1024) (d : Fin 256), j = ix2 p d := ⟨j 0, j 1, eq_ix2 j⟩
  have hr : t.val * 1024 + p.val < 8192 := by
    have := t.isLt; have hN : cfg0.N = 8 := N_0; have := p.isLt; omega
  rw [View.read_apply, norm_oblk_emb t p d ⟨t.val * 1024 + p.val, hr⟩ rfl]
  refine (norm_pay_apply (iblk0 V c 0 t) p d).trans ?_
  show _ = normFeat V c (ix2 ⟨t.val * 1024 + p.val, hr⟩ d) * Ideal.rsqrt (∑ e : Fin 256, normFeat V c (ix2 ⟨t.val * 1024 + p.val, hr⟩ e) * normFeat V c (ix2 ⟨t.val * 1024 + p.val, hr⟩ e))
  rw [iblk0_apply V c t p d ⟨t.val * 1024 + p.val, hr⟩ rfl]
  refine congrArg (_ * Ideal.rsqrt ·) ?_
  refine Finset.sum_congr rfl fun e _ => ?_
  rw [iblk0_apply V c t p e ⟨t.val * 1024 + p.val, hr⟩ rfl]

/-- An index of the array is in point `t`'s block iff each coordinate is in the block's range on its axis. -/
theorem norm_mem_oblk (t : Fin cfg0.N) (i : S8192x256.Idx) :
    i ∈ ((cfg0.win 1).blk t).view.set ↔ ∀ a : Fin 2, win0_1.index t a * S1024x256.size a ≤ (i a).val ∧ (i a).val < win0_1.index t a * S1024x256.size a + S1024x256.size a := by
  show i ∈ ((View.whole main_v0).slice (win0_1.rect t)).set ↔ _
  rw [View.set_slice_whole, Rect.mem_set_unit]
  exact Iff.rfl

/-- Row `r` is written back by point `r / 1024`. -/
theorem norm_covered (i : S8192x256.Idx) : ∃ t : Fin cfg0.N, (cfg0.win 1).flush t = true ∧ i ∈ ((cfg0.win 1).blk t).view.set := by
  have h0 : (i 0).val < 8192 := (i 0).isLt
  have h1 : (i 1).val < 256 := (i 1).isLt
  have hN : cfg0.N = 8 := N_0
  refine ⟨⟨(i 0).val / 1024, by rw [hN]; omega⟩, flush0_1 _, ?_⟩
  rw [norm_mem_oblk]
  obtain ⟨-, -, e0, e1⟩ := norm_index_facts ⟨(i 0).val / 1024, by rw [hN]; omega⟩
  intro a
  match a with
  | ⟨0, _⟩ =>
    show win0_1.index ⟨(i 0).val / 1024, _⟩ (0 : Fin 2) * 1024 ≤ (i 0).val ∧ (i 0).val < win0_1.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_1.index ⟨(i 0).val / 1024, _⟩ (1 : Fin 2) * 256 ≤ (i 1).val ∧ (i 1).val < win0_1.index ⟨(i 0).val / 1024, _⟩ (1 : Fin 2) * 256 + 256
    rw [e1]; omega

/-- After the first call the array of scaled rows holds, at `(r, d)`, the features' entry times the reciprocal square
    root of row `r`'s sum of squares. -/
theorem norm_arr (c : Dev nD) (r : Fin 8192) (d : Fin 256) :
    (dat0 (F := Ideal) V c).arrAt 1 cfg0.N (ValueIdx.ix2 r d) = Cert.Spec.unitK (V c main_arg0) r d :=
  congrFun ((dat0 (F := Ideal) V c).arrAt_eq_of_cover 1 (Cert.Spec.unitArr (normFeat V c)) (fun t _ => norm_flushed_eq V c t) norm_covered) (ix2 r d)

end Cert.KernelIdeal.Fr

end
-- ==== Proof.TripletPay.lean ====
/-
  The second kernel's stored values read at an index, over variables of the literal vector types: the two starting
  values are the largest finite f32 and its negative; the running minimum of row p becomes the old one met with the
  minimum over the tile's 512 columns of (inner product where the labels agree, the largest finite f32 elsewhere);
  the running maximum likewise with the roles of the two branches exchanged and the negative word.
-/
import proofs.«116771_j2688649527615_1_alg».proof.Proof.Gen.KernelIdeal.Launch
import proofs.«116771_j2688649527615_1_alg».proof.Proof.Gen.KernelIdeal.Skeleton
import proofs.«116771_j2688649527615_1_alg».proof.Proof.Gen.KernelIdeal.Points
import Idealize.ShloMosaic.Lib.Pipeline.FrameBody
import Idealize.ShloMosaic.Lib.Ring
import Idealize.ShloMosaic.Lib.Tactic
import proofs.«116771_j2688649527615_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

/-! ## Words and layout at an index -/

/-- The f32 word of +∞ is the top extended real, the word of -∞ the bottom one. -/
theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

/-- A select on the comparison of two words for equality is the `if` on their equality. -/
theorem select_cmpi_eq {α : Type} (x y : BitVec 32) (a b : α) :
    Scalar.select (IntOp.cmpi .eq x y) a b = if x = y then a else b := by
  unfold Scalar.select IntOp.cmpi
  by_cases h : x = y
  · rw [if_pos h]; subst h; simp
  · rw [if_neg h]
    have hb : (x == y) = false := beq_eq_false_iff_ne.mpr h
    simp [hb]

/-- A [512] vector viewed as a column [512, 1] reads, at (p, u), the vector at p. -/
theorem castCol_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [512, 1] broadcast along the rows of [512, 512] reads, at (p, c), the column at (p, 0). -/
theorem bcastCol_apply {α : Type} (v : S512x1.Idx → α) (h : S512x1.Broadcasts S512x512) (p c : Fin 512) :
    broadcastTo S512x512 v h (ix2 p c) = v (ix2 p (0 : Fin 1)) := by
  refine broadcastTo_apply v h (ix2 p c) (ix2 p (0 : Fin 1)) fun ax => ?_
  match ax with
  | ⟨0, _⟩ => show p.val = if (512 : ℕ) = 1 then 0 else p.val; rw [if_neg (by decide)]
  | ⟨1, _⟩ => show 0 = if (1 : ℕ) = 1 then 0 else c.val; rw [if_pos rfl]

/-! ## The two starting values -/

/-- The value the running minimum starts from is the largest finite f32 everywhere. -/
theorem pay1_apply (j : S512x1.Idx) : k1_pay1 (F := Ideal) j = Cert.Spec.big := rfl

/-- The value the running maximum starts from is its negative everywhere. -/
theorem pay2_apply (j : S512x1.Idx) : k1_pay2 (F := Ideal) j = Cert.Spec.nbig := rfl

/-! ## The product of a row tile with the transpose of a column tile -/

theorem lhs_sim_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem lhs_sim_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem rhs_sim_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem rhs_sim_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- Entry (p, k') of the product is the inner product of row p of the first tile and row k' of the second. -/
theorem pay3_apply (v3 v5 : Vec Ideal S512x256 .bf16) (p k' : Fin 512) :
    k1_pay3 v3 v5 (ix2 p k') = ∑ d : Fin 256, v3 (ix2 p d) * v5 (ix2 k' d) := by
  unfold k1_pay3
  rw [shapeCast_self, shapeCast_self]
  simp only [matmul]
  rw [Ideal.matmul_constant_zero_apply, ← Equiv.sum_comp (contrEquiv1 dot_S512x256_S512x256_S512x512_1_1_0_0_n_n 256 rfl rfl).symm]
  refine Finset.sum_congr rfl fun d _ => ?_
  have hd := contrEquiv1_symm_val dot_S512x256_S512x256_S512x512_1_1_0_0_n_n 256 rfl rfl d
  have el : dot_S512x256_S512x256_S512x512_1_1_0_0_n_n.lhsIdx (ix2 p k') ((contrEquiv1 dot_S512x256_S512x256_S512x512_1_1_0_0_n_n 256 rfl rfl).symm d) = ix2 p d := funext fun a => Fin.ext (by
    match a with
    | ⟨0, _⟩ => exact lhs_sim_0 _ _
    | ⟨1, _⟩ => exact (lhs_sim_1 _ _).trans hd)
  have er : dot_S512x256_S512x256_S512x512_1_1_0_0_n_n.rhsIdx (ix2 p k') ((contrEquiv1 dot_S512x256_S512x256_S512x512_1_1_0_0_n_n 256 rfl rfl).symm d) = ix2 k' d := funext fun a => Fin.ext (by
    match a with
    | ⟨0, _⟩ => exact rhs_sim_0 _ _
    | ⟨1, _⟩ => exact (rhs_sim_1 _ _).trans hd)
  rw [el, er]

/-! ## The label mask -/

/-- Bit (p, k') of the mask compares the label of row p with the label of column k'. -/
theorem pay4_apply (v8 : Vec Ideal S512x1 .i32) (v10 : Vec Ideal S1x512 .i32) (p k' : Fin 512) :
    k1_pay4 (F := Ideal) v8 v10 (ix2 p k') = IntOp.cmpi .eq (v8 (ix2 p (0 : Fin 1))) (v10 (ix2 (0 : Fin 1) k')) := by
  unfold k1_pay4
  rw [shapeCast_self, shapeCast_self]
  show IntOp.cmpi .eq (broadcastTo S512x512 v8 broadcasts_S512x1_S512x512 (ix2 p k')) (broadcastTo S512x512 v10 broadcasts_S1x512_S512x512 (ix2 p k')) = _
  rw [bcastCol_apply, broadcastTo_1b_ab_apply]

/-! ## A row's minimum and maximum over the 512 columns -/

/-- A minimum over one axis, from the accumulator's value: the fold of `min` over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row p's minimum over the columns, from +∞. -/
theorem rowMin_apply (src : FVec Ideal S512x512 .f32) (hφ : FKind.Formats .f32)
    (hacc : (0x7F800000#32 : BitVec 32) = FKind.minimumf.neutral .f32 hφ) (p : Fin 512) :
    multiReduction (F := Ideal) .minimumf [1] S512 src 0x7F800000#32 reduces_S512x512_S512 hφ hacc (ix1 p)
      = (Finset.univ : Finset (Fin 512)).fold min (⊤ : EReal) (fun k' => src (ix2 p k')) := by
  refine (multiReduction_minimumf_single src 0x7F800000#32 reduces_S512x512_S512 hφ hacc (ix1 p)).trans ?_
  show (Finset.univ : Finset (Fin 512)).fold min (Ideal.ofBits .f32 0x7F800000#32) _ = _
  rw [ofBits_posInf]
  refine Finset.fold_congr fun k' _ => ?_
  exact congrArg src (funext fun a => Fin.ext (by match a with | ⟨0, _⟩ => rfl | ⟨1, _⟩ => rfl))

/-- Row p's maximum over the columns, from -∞. -/
theorem rowMax_apply (src : FVec Ideal S512x512 .f32) (hφ : FKind.Formats .f32)
    (hacc : (0xFF800000#32 : BitVec 32) = FKind.maximumf.neutral .f32 hφ) (p : Fin 512) :
    multiReduction (F := Ideal) .maximumf [1] S512 src 0xFF800000#32 reduces_S512x512_S512 hφ hacc (ix1 p)
      = (Finset.univ : Finset (Fin 512)).fold max (⊥ : EReal) (fun k' => src (ix2 p k')) := by
  refine (Ideal.multiReduction_maximumf_single src 0xFF800000#32 reduces_S512x512_S512 hφ hacc (ix1 p)).trans ?_
  show (Finset.univ : Finset (Fin 512)).fold max (Ideal.ofBits .f32 0xFF800000#32) _ = _
  rw [ofBits_negInf]
  refine Finset.fold_congr fun k' _ => ?_
  exact congrArg src (funext fun a => Fin.ext (by match a with | ⟨0, _⟩ => rfl | ⟨1, _⟩ => rfl))

/-! ## The two updates -/

/-- The new running minimum of row p: the old one met with the minimum, over the tile's columns k', of the inner
    product where the labels agree and of the largest finite f32 where they do not. -/
theorem pay5_apply (v3 v5 : Vec Ideal S512x256 .bf16) (v8 : Vec Ideal S512x1 .i32) (v10 : Vec Ideal S1x512 .i32)
    (v19 : Vec Ideal S512x1 .f32) (p : Fin 512) :
    k1_pay5 v3 v5 v8 v10 v19 (ix2 p 0) = min (v19 (ix2 p 0))
      ((Finset.univ : Finset (Fin 512)).fold min (⊤ : EReal) (fun k' =>
        if v8 (ix2 p 0) = v10 (ix2 0 k') then ∑ d : Fin 256, v3 (ix2 p d) * v5 (ix2 k' d) else Cert.Spec.big)) := by
  unfold k1_pay5
  dsimp only
  rw [minimumf_apply, shapeCast_self, castCol_apply]
  refine congrArg (min (v19 (ix2 p 0))) ?_
  refine (rowMin_apply _ _ _ p).trans ?_
  refine Finset.fold_congr fun k' _ => ?_
  rw [select_apply, pay4_apply, pay3_apply, select_cmpi_eq]
  rfl

/-- The new running maximum of row p: the old one joined with the maximum, over the tile's columns k', of the
    negative of the largest finite f32 where the labels agree and of the inner product where they do not. -/
theorem pay6_apply (v3 v5 : Vec Ideal S512x256 .bf16) (v8 : Vec Ideal S512x1 .i32) (v10 : Vec Ideal S1x512 .i32)
    (v25 : Vec Ideal S512x1 .f32) (p : Fin 512) :
    k1_pay6 v3 v5 v8 v10 v25 (ix2 p 0) = max (v25 (ix2 p 0))
      ((Finset.univ : Finset (Fin 512)).fold max (⊥ : EReal) (fun k' =>
        if v8 (ix2 p 0) = v10 (ix2 0 k') then Cert.Spec.nbig else ∑ d : Fin 256, v3 (ix2 p d) * v5 (ix2 k' d))) := by
  unfold k1_pay6
  dsimp only
  rw [maximumf_apply, shapeCast_self, castCol_apply]
  refine congrArg (max (v25 (ix2 p 0))) ?_
  refine (rowMax_apply _ _ _ p).trans ?_
  refine Finset.fold_congr fun k' _ => ?_
  rw [select_apply, pay4_apply, pay3_apply, select_cmpi_eq]
  rfl

end Cert.KernelIdeal.Fr

end
-- ==== Proof.TripletValue.lean ====
/-
  What the second call leaves in its two result arrays. Point t = qi·16 + kj of the 16 × 16 grid holds row tile qi
  and column tile kj; the first column tile (kj = 0) resets the two staging columns to the largest finite f32 and to
  its negative and then meets them with the tile's extrema, every later one meets what the point before left with its
  own tile's. So after point t the staging columns hold, at row p of the tile, the running minimum and maximum of row
  qi·512 + p over the column tiles 0 … kj (by induction on the point); the last column tile (kj = 15) writes them back,
  those write-backs cover the 8192 rows, and the arrays end holding the running extrema over all 16 tiles.
-/
import proofs.«116771_j2688649527615_1_alg».proof.Proof.Gen.KernelIdeal.Launch
import proofs.«116771_j2688649527615_1_alg».proof.Proof.Gen.KernelIdeal.Skeleton
import proofs.«116771_j2688649527615_1_alg».proof.Proof.Gen.KernelIdeal.Points
import Idealize.ShloMosaic.Lib.Pipeline.FrameBody
import Idealize.ShloMosaic.Lib.Ring
import Idealize.ShloMosaic.Lib.Tactic
import proofs.«116771_j2688649527615_1_alg».proof.Proof.Spec
import proofs.«116771_j2688649527615_1_alg».proof.Proof.TripletRegion
import proofs.«116771_j2688649527615_1_alg».proof.Proof.TripletPay
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.ShloMosaic.ValueIdx
open scoped BigOperators

/-! ## The pieces each case leaves, read back as stored values (for every float instance) -/

theorem hz2 : (![0, 0] : Fin 2 → Nat) = fun _ => 0 := funext fun a => by fin_cases a <;> rfl

/-- A later column tile leaves, in the minimum's column, the update of what the column held. -/
theorem out1_B_4_eq (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 xo5 : Vec F S512x1 .f32) :
    out1_B_4 c i arg2 harg2 arg3 harg3 arg4 harg4 arg5 harg5 arg6 harg6 arg7 harg7 hc0 x0 x1 x2 x3 xo4 xo5 = k1_pay5 x0 x1 x2 x3 xo4 := by
  unfold out1_B_4
  rw [View.read_writes_eq_canon _ _ _ (cover1_B_4 c i arg2 harg2 arg3 harg3 arg4 harg4 arg5 harg5 arg6 harg6 arg7 harg7 hc0 x0 x1 x2 x3 xo4 xo5)]
  unfold kernelRun1_B
  dsimp only
  sl_unfold_words
  rw [View.canon_unit_zero hz2]
  simp only [View.readAt_eq_ld, harg2.read_unread, harg3.read_unread, harg4.read_unread, harg5.read_unread, harg6.read_unread, harg7.read_unread, View.ld_unit_zero (S := S512x256) hz2, View.ld_unit_zero (S := S512x1) hz2, View.ld_unit_zero (S := S1x512) hz2]

/-- … and in the maximum's column likewise. -/
theorem out1_B_5_eq (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i)
    (x0 : Vec F S512x256 .bf16) (x1 : Vec F S512x256 .bf16) (x2 : Vec F S512x1 .i32) (x3 : Vec F S1x512 .i32) (xo4 xo5 : Vec F S512x1 .f32) :
    out1_B_5 c i arg2 harg2 arg3 harg3 arg4 harg4 arg5 harg5 arg6 harg6 arg7 harg7 hc0 x0 x1 x2 x3 xo4 xo5 = k1_pay6 x0 x1 x2 x3 xo5 := by
  unfold out1_B_5
  rw [View.read_writes_eq_canon _ _ _ (cover1_B_5 c i arg2 harg2 arg3 harg3 arg4 harg4 arg5 harg5 arg6 harg6 arg7 harg7 hc0 x0 x1 x2 x3 xo4 xo5)]
  unfold kernelRun1_B
  dsimp only
  sl_unfold_words
  rw [View.canon_unit_zero hz2]
  simp only [View.readAt_eq_ld, harg2.read_unread, harg3.read_unread, harg4.read_unread, harg5.read_unread, harg6.read_unread, harg7.read_unread, View.ld_unit_zero (S := S512x256) hz2, View.ld_unit_zero (S := S512x1) hz2, View.ld_unit_zero (S := S1x512) hz2]

/-- The first column tile stores the starting value, reads it back, and leaves its update. -/
theorem out1_A_4_eq (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) :
    out1_A_4 c i arg2 harg2 arg3 harg3 arg4 harg4 arg5 harg5 arg6 harg6 arg7 harg7 hc0 x0 x1 x2 x3 = k1_pay5 x0 x1 x2 x3 (k1_pay1 (F := F)) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread, harg7.read_unread, View.ld_unit_zero (S := S512x256) hz2, View.ld_unit_zero (S := S512x1) hz2, View.ld_unit_zero (S := S1x512) hz2]

theorem out1_A_5_eq (c : Dev nD) (i : grid1.Coords) (arg2 : Memref sig .tc .vmem S512x256 .bf16) (harg2 : arg2.IsWhole) (arg3 : Memref sig .tc .vmem S512x256 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i)
    (x0 : Vec F S512x256 .bf16) (x1 : Vec F S512x256 .bf16) (x2 : Vec F S512x1 .i32) (x3 : Vec F S1x512 .i32) :
    out1_A_5 c i arg2 harg2 arg3 harg3 arg4 harg4 arg5 harg5 arg6 harg6 arg7 harg7 hc0 x0 x1 x2 x3 = k1_pay6 x0 x1 x2 x3 (k1_pay2 (F := F)) := by
  unfold out1_A_5
  rw [View.read_writes_eq_canon _ _ _ (cover1_A_5 c i arg2 harg2 arg3 harg3 arg4 harg4 arg5 harg5 arg6 harg6 arg7 harg7 hc0 x0 x1 x2 x3)]
  unfold kernelRun1_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread, harg7.read_unread, View.ld_unit_zero (S := S512x256) hz2, View.ld_unit_zero (S := S512x1) hz2, View.ld_unit_zero (S := S1x512) hz2]

/-! ## The blocks at a point, read at an index -/

theorem lt256 (t : Fin cfg1.N) : t.val < 256 := lt_of_lt_of_eq t.isLt (show cfg1.N = 256 from N_1)

/-- The printed index maps, decided once over the grid: the row windows follow the quotient of the point by 16, the
    column windows its remainder. -/
theorem idx1_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0
    ∧ win1_5.index t (0 : Fin 2) = t.val / 16 ∧ win1_5.index t (1 : Fin 2) = 0 :=
  (by decide +kernel : ∀ t : Fin grid1.N, _)

/-- Row p of the row tile is row r = (t / 16)·512 + p of the scaled rows. -/
theorem iblk1_0_apply (c : Dev nD) (t : Fin cfg1.N) (p : Fin 512) (d : Fin 256) (r : Fin 8192)
    (hr : r.val = t.val / 16 * 512 + p.val) :
    (iblk1 V c 0 t : Vec F S512x256 .bf16) (ix2 p d) = (V c main_v0 : Vec F S8192x256 .bf16) (ix2 r d) := by
  unfold iblk1
  rw [View.read_apply]
  show V c main_v0 _ = V c main_v0 _
  obtain ⟨e0, e1, -⟩ := idx1_facts t
  refine congrArg (V c main_v0) (funext fun a => Fin.ext ?_)
  match a with
  | ⟨0, _⟩ => show win1_0.index t (0 : Fin 2) * 512 + 1 * p.val = r.val; rw [e0, hr]; omega
  | ⟨1, _⟩ => show win1_0.index t (1 : Fin 2) * 256 + 1 * d.val = d.val; rw [e1]; omega

/-- Row k' of the column tile is row r = (t % 16)·512 + k' of the scaled rows. -/
theorem iblk1_1_apply (c : Dev nD) (t : Fin cfg1.N) (k' : Fin 512) (d : Fin 256) (r : Fin 8192)
    (hr : r.val = t.val % 16 * 512 + k'.val) :
    (iblk1 V c 1 t : Vec F S512x256 .bf16) (ix2 k' d) = (V c main_v0 : Vec F S8192x256 .bf16) (ix2 r d) := by
  unfold iblk1
  rw [View.read_apply]
  show V c main_v0 _ = V c main_v0 _
  obtain ⟨-, -, e0, e1, -⟩ := idx1_facts t
  refine congrArg (V c main_v0) (funext fun a => Fin.ext ?_)
  match a with
  | ⟨0, _⟩ => show win1_1.index t (0 : Fin 2) * 512 + 1 * k'.val = r.val; rw [e0, hr]; omega
  | ⟨1, _⟩ => show win1_1.index t (1 : Fin 2) * 256 + 1 * d.val = d.val; rw [e1]; omega

/-- Entry p of the label column's tile is the label of row r = (t / 16)·512 + p. -/
theorem iblk1_2_apply (c : Dev nD) (t : Fin cfg1.N) (p : Fin 512) (u : Fin 1) (r : Fin 8192)
    (hr : r.val = t.val / 16 * 512 + p.val) :
    (iblk1 V c 2 t : Vec F S512x1 .i32) (ix2 p u) = (V c main_v1 : Vec F S8192x1 .i32) (ix2 r (0 : Fin 1)) := by
  unfold iblk1
  rw [View.read_apply]
  show V c main_v1 _ = V c main_v1 _
  obtain ⟨-, -, -, -, e0, e1, -⟩ := idx1_facts t
  refine congrArg (V c main_v1) (funext fun a => Fin.ext ?_)
  match a with
  | ⟨0, _⟩ => show win1_2.index t (0 : Fin 2) * 512 + 1 * p.val = r.val; rw [e0, hr]; omega
  | ⟨1, _⟩ => show win1_2.index t (1 : Fin 2) * 1 + 1 * u.val = 0; rw [e1]; omega

/-- Entry k' of the label row's tile is the label of column r = (t % 16)·512 + k'. -/
theorem iblk1_3_apply (c : Dev nD) (t : Fin cfg1.N) (u : Fin 1) (k' : Fin 512) (r : Fin 8192)
    (hr : r.val = t.val % 16 * 512 + k'.val) :
    (iblk1 V c 3 t : Vec F S1x512 .i32) (ix2 u k') = (V c main_v2 : Vec F S1x8192 .i32) (ix2 (0 : Fin 1) r) := by
  unfold iblk1
  rw [View.read_apply]
  show V c main_v2 _ = V c main_v2 _
  obtain ⟨-, -, -, -, -, -, e0, e1, -⟩ := idx1_facts t
  refine congrArg (V c main_v2) (funext fun a => Fin.ext ?_)
  match a with
  | ⟨0, _⟩ => show win1_3.index t (0 : Fin 2) * 1 + 1 * u.val = 0; rw [e0]; omega
  | ⟨1, _⟩ => show win1_3.index t (1 : Fin 2) * 512 + 1 * k'.val = r.val; rw [e1, hr]; omega

/-- An array of the minima's shape read through the minimum window's block at point t: entry p is the array's at row
    r = (t / 16)·512 + p. -/
theorem read_blk4_apply (c : Dev nD) (X : Buf (Elt F) ((c : Thread nD τ).loc main_v3_0)) (t : Fin cfg1.N) (p : Fin 512)
    (u : Fin 1) (r : Fin 8192) (hr : r.val = t.val / 16 * 512 + p.val) :
    (((cfg1.win 4).blk t).view.read (Elt F) X : Vec F S512x1 .f32) (ix2 p u) = (X : Vec F S8192x1 .f32) (ix2 r (0 : Fin 1)) := by
  rw [View.read_apply]
  show X _ = X _
  obtain ⟨-, -, -, -, -, -, -, -, e0, e1, -⟩ := idx1_facts t
  refine congrArg X (funext fun a => Fin.ext ?_)
  match a with
  | ⟨0, _⟩ => show win1_4.index t (0 : Fin 2) * 512 + 1 * p.val = r.val; rw [e0, hr]; omega
  | ⟨1, _⟩ => show win1_4.index t (1 : Fin 2) * 1 + 1 * u.val = 0; rw [e1]; omega

theorem read_blk5_apply (c : Dev nD) (X : Buf (Elt F) ((c : Thread nD τ).loc main_v3_1)) (t : Fin cfg1.N) (p : Fin 512)
    (u : Fin 1) (r : Fin 8192) (hr : r.val = t.val / 16 * 512 + p.val) :
    (((cfg1.win 5).blk t).view.read (Elt F) X : Vec F S512x1 .f32) (ix2 p u) = (X : Vec F S8192x1 .f32) (ix2 r (0 : Fin 1)) := by
  rw [View.read_apply]
  show X _ = X _
  obtain ⟨-, -, -, -, -, -, -, -, -, -, e0, e1⟩ := idx1_facts t
  refine congrArg X (funext fun a => Fin.ext ?_)
  match a with
  | ⟨0, _⟩ => show win1_5.index t (0 : Fin 2) * 512 + 1 * p.val = r.val; rw [e0, hr]; omega
  | ⟨1, _⟩ => show win1_5.index t (1 : Fin 2) * 1 + 1 * u.val = 0; rw [e1]; omega

/-- Two columns of 512 entries that agree entry by entry are equal. -/
theorem col_ext {α : Type} (f g : S512x1.Idx → α) (h : ∀ p : Fin 512, f (ix2 p 0) = g (ix2 p 0)) : f = g :=
  funext fun j => by
    obtain ⟨p, u, rfl⟩ : ∃ (p : Fin 512) (u : Fin 1), j = ix2 p u := ⟨j 0, j 1, eq_ix2 j⟩
    obtain rfl : u = 0 := Subsingleton.elim _ _
    exact h p

/-! ## One tile's extrema, and one step of the running ones (extended reals) -/

/-- Row q·512 + k' of the 8192 rows, for a tile number q below 16. -/
def tileRow (q : ℕ) (hq : q < 16) (k' : Fin 512) : Fin 8192 := ⟨q * 512 + k'.val, by have := k'.isLt; omega⟩

theorem col_eq (q : ℕ) (hq : q < 16) (k' : Fin 512) : Cert.Spec.col q k' = tileRow q hq k' := Fin.ext (by
  show (q * 512 + k'.val) % 8192 = q * 512 + k'.val
  have := k'.isLt; exact Nat.mod_eq_of_lt (by omega))

theorem tileMin_eq (y : Cert.Spec.Feat) (lc : Cert.Spec.LabCol) (lr : Cert.Spec.LabRow)
    (v3 v5 : Vec Ideal S512x256 .bf16) (v8 : Vec Ideal S512x1 .i32) (v10 : Vec Ideal S1x512 .i32)
    (r : Fin 8192) (q : ℕ) (hq : q < 16) (p : Fin 512)
    (h3 : ∀ d : Fin 256, v3 (ix2 p d) = y (ix2 r d))
    (h5 : ∀ (k' : Fin 512) (d : Fin 256), v5 (ix2 k' d) = y (ix2 (tileRow q hq k') d))
    (h8 : v8 (ix2 p 0) = lc (ix2 r 0))
    (h10 : ∀ k' : Fin 512, v10 (ix2 0 k') = lr (ix2 0 (tileRow q hq k'))) :
    (Finset.univ : Finset (Fin 512)).fold min (⊤ : EReal) (fun k' =>
        if v8 (ix2 p 0) = v10 (ix2 0 k') then ∑ d : Fin 256, v3 (ix2 p d) * v5 (ix2 k' d) else Cert.Spec.big)
      = Cert.Spec.tileMin y lc lr r q := by
  unfold Cert.Spec.tileMin
  refine Finset.fold_congr fun k' _ => ?_
  unfold Cert.Spec.posCand Cert.Spec.dot
  rw [col_eq q hq k', h8, h10 k']
  refine if_congr Iff.rfl (Finset.sum_congr rfl fun d _ => ?_) rfl
  rw [h3 d, h5 k' d]

theorem tileMax_eq (y : Cert.Spec.Feat) (lc : Cert.Spec.LabCol) (lr : Cert.Spec.LabRow)
    (v3 v5 : Vec Ideal S512x256 .bf16) (v8 : Vec Ideal S512x1 .i32) (v10 : Vec Ideal S1x512 .i32)
    (r : Fin 8192) (q : ℕ) (hq : q < 16) (p : Fin 512)
    (h3 : ∀ d : Fin 256, v3 (ix2 p d) = y (ix2 r d))
    (h5 : ∀ (k' : Fin 512) (d : Fin 256), v5 (ix2 k' d) = y (ix2 (tileRow q hq k') d))
    (h8 : v8 (ix2 p 0) = lc (ix2 r 0))
    (h10 : ∀ k' : Fin 512, v10 (ix2 0 k') = lr (ix2 0 (tileRow q hq k'))) :
    (Finset.univ : Finset (Fin 512)).fold max (⊥ : EReal) (fun k' =>
        if v8 (ix2 p 0) = v10 (ix2 0 k') then Cert.Spec.nbig else ∑ d : Fin 256, v3 (ix2 p d) * v5 (ix2 k' d))
      = Cert.Spec.tileMax y lc lr r q := by
  unfold Cert.Spec.tileMax
  refine Finset.fold_congr fun k' _ => ?_
  unfold Cert.Spec.negCand Cert.Spec.dot
  rw [col_eq q hq k', h8, h10 k']
  refine if_congr Iff.rfl rfl (Finset.sum_congr rfl fun d _ => ?_)
  rw [h3 d, h5 k' d]

/-- The first column tile: the starting value met with tile 0's minimum is the running minimum after tile 0. -/
theorem posStep_first (y : Cert.Spec.Feat) (lc : Cert.Spec.LabCol) (lr : Cert.Spec.LabRow)
    (v3 v5 : Vec Ideal S512x256 .bf16) (v8 : Vec Ideal S512x1 .i32) (v10 : Vec Ideal S1x512 .i32)
    (r : Fin 8192) (q : ℕ) (hq : q < 16) (hq0 : q = 0) (p : Fin 512)
    (h3 : ∀ d : Fin 256, v3 (ix2 p d) = y (ix2 r d))
    (h5 : ∀ (k' : Fin 512) (d : Fin 256), v5 (ix2 k' d) = y (ix2 (tileRow q hq k') d))
    (h8 : v8 (ix2 p 0) = lc (ix2 r 0))
    (h10 : ∀ k' : Fin 512, v10 (ix2 0 k') = lr (ix2 0 (tileRow q hq k'))) :
    k1_pay5 v3 v5 v8 v10 (k1_pay1 (F := Ideal)) (ix2 p 0) = Cert.Spec.runMin y lc lr r q := by
  subst hq0
  rw [pay5_apply, pay1_apply, tileMin_eq y lc lr v3 v5 v8 v10 r 0 hq p h3 h5 h8 h10]
  rfl

theorem negStep_first (y : Cert.Spec.Feat) (lc : Cert.Spec.LabCol) (lr : Cert.Spec.LabRow)
    (v3 v5 : Vec Ideal S512x256 .bf16) (v8 : Vec Ideal S512x1 .i32) (v10 : Vec Ideal S1x512 .i32)
    (r : Fin 8192) (q : ℕ) (hq : q < 16) (hq0 : q = 0) (p : Fin 512)
    (h3 : ∀ d : Fin 256, v3 (ix2 p d) = y (ix2 r d))
    (h5 : ∀ (k' : Fin 512) (d : Fin 256), v5 (ix2 k' d) = y (ix2 (tileRow q hq k') d))
    (h8 : v8 (ix2 p 0) = lc (ix2 r 0))
    (h10 : ∀ k' : Fin 512, v10 (ix2 0 k') = lr (ix2 0 (tileRow q hq k'))) :
    k1_pay6 v3 v5 v8 v10 (k1_pay2 (F := Ideal)) (ix2 p 0) = Cert.Spec.runMax y lc lr r q := by
  subst hq0
  rw [pay6_apply, pay2_apply, tileMax_eq y lc lr v3 v5 v8 v10 r 0 hq p h3 h5 h8 h10]
  rfl

/-- A later column tile q = q' + 1: the running minimum after tile q' met with tile q's is the one after tile q. -/
theorem posStep_next (y : Cert.Spec.Feat) (lc : Cert.Spec.LabCol) (lr : Cert.Spec.LabRow)
    (v3 v5 : Vec Ideal S512x256 .bf16) (v8 : Vec Ideal S512x1 .i32) (v10 : Vec Ideal S1x512 .i32)
    (xo : Vec Ideal S512x1 .f32) (r : Fin 8192) (q : ℕ) (hq : q < 16) (q' : ℕ) (hqq : q = q' + 1) (p : Fin 512)
    (hxo : xo (ix2 p 0) = Cert.Spec.runMin y lc lr r q')
    (h3 : ∀ d : Fin 256, v3 (ix2 p d) = y (ix2 r d))
    (h5 : ∀ (k' : Fin 512) (d : Fin 256), v5 (ix2 k' d) = y (ix2 (tileRow q hq k') d))
    (h8 : v8 (ix2 p 0) = lc (ix2 r 0))
    (h10 : ∀ k' : Fin 512, v10 (ix2 0 k') = lr (ix2 0 (tileRow q hq k'))) :
    k1_pay5 v3 v5 v8 v10 xo (ix2 p 0) = Cert.Spec.runMin y lc lr r q := by
  subst hqq
  rw [pay5_apply, hxo, tileMin_eq y lc lr v3 v5 v8 v10 r (q' + 1) hq p h3 h5 h8 h10]
  rfl

theorem negStep_next (y : Cert.Spec.Feat) (lc : Cert.Spec.LabCol) (lr : Cert.Spec.LabRow)
    (v3 v5 : Vec Ideal S512x256 .bf16) (v8 : Vec Ideal S512x1 .i32) (v10 : Vec Ideal S1x512 .i32)
    (xo : Vec Ideal S512x1 .f32) (r : Fin 8192) (q : ℕ) (hq : q < 16) (q' : ℕ) (hqq : q = q' + 1) (p : Fin 512)
    (hxo : xo (ix2 p 0) = Cert.Spec.runMax y lc lr r q')
    (h3 : ∀ d : Fin 256, v3 (ix2 p d) = y (ix2 r d))
    (h5 : ∀ (k' : Fin 512) (d : Fin 256), v5 (ix2 k' d) = y (ix2 (tileRow q hq k') d))
    (h8 : v8 (ix2 p 0) = lc (ix2 r 0))
    (h10 : ∀ k' : Fin 512, v10 (ix2 0 k') = lr (ix2 0 (tileRow q hq k'))) :
    k1_pay6 v3 v5 v8 v10 xo (ix2 p 0) = Cert.Spec.runMax y lc lr r q := by
  subst hqq
  rw [pay6_apply, hxo, tileMax_eq y lc lr v3 v5 v8 v10 r (q' + 1) hq p h3 h5 h8 h10]
  rfl

/-! ## The staging columns after each point: the running extrema -/

/-- A first column tile (t % 16 = 0): the columns hold the running extrema after tile 0. -/
theorem outsAt1_first (V : (c : Dev nD) → (b : Ref sig .tc) → Buf (Elt Ideal) ((c : Thread nD τ).loc b)) (c : Dev nD) (t : Fin cfg1.N) (h0 : t.val % 16 = 0) (p : Fin 512) (r : Fin 8192)
    (hr : r.val = t.val / 16 * 512 + p.val) :
    (outsAt1 V c t.val t.isLt).1 (ix2 p 0) = Cert.Spec.runMin (V c main_v0) (V c main_v1) (V c main_v2) r (t.val % 16)
    ∧ (outsAt1 V c t.val t.isLt).2 (ix2 p 0) = Cert.Spec.runMax (V c main_v0) (V c main_v1) (V c main_v2) r (t.val % 16) := by
  have hq : t.val % 16 < 16 := Nat.mod_lt _ (by decide)
  rw [outsAt1_A V c t h0]
  dsimp only
  rw [out1_A_4_eq, out1_A_5_eq]
  exact ⟨posStep_first _ _ _ (iblk1 V c 0 t) (iblk1 V c 1 t) (iblk1 V c 2 t) (iblk1 V c 3 t) r (t.val % 16) hq h0 p
      (fun d => iblk1_0_apply V c t p d r hr) (fun k' d => iblk1_1_apply V c t k' d _ rfl)
      (iblk1_2_apply V c t p 0 r hr) (fun k' => iblk1_3_apply V c t 0 k' _ rfl),
    negStep_first _ _ _ (iblk1 V c 0 t) (iblk1 V c 1 t) (iblk1 V c 2 t) (iblk1 V c 3 t) r (t.val % 16) hq h0 p
      (fun d => iblk1_0_apply V c t p d r hr) (fun k' d => iblk1_1_apply V c t k' d _ rfl)
      (iblk1_2_apply V c t p 0 r hr) (fun k' => iblk1_3_apply V c t 0 k' _ rfl)⟩

/-- A later column tile: over the running extrema the point before left, the columns hold the running extrema after
    this tile. -/
theorem outsAt1_next (V : (c : Dev nD) → (b : Ref sig .tc) → Buf (Elt Ideal) ((c : Thread nD τ).loc b)) (c : Dev nD) (t : Fin cfg1.N) (h0 : ¬t.val % 16 = 0) (p : Fin 512) (r : Fin 8192)
    (hr : r.val = t.val / 16 * 512 + p.val)
    (ih : (outsAt1 V c (t.val - 1) (Nat.lt_of_le_of_lt (Nat.sub_le _ _) t.isLt)).1 (ix2 p 0)
          = Cert.Spec.runMin (V c main_v0) (V c main_v1) (V c main_v2) r ((t.val - 1) % 16)
      ∧ (outsAt1 V c (t.val - 1) (Nat.lt_of_le_of_lt (Nat.sub_le _ _) t.isLt)).2 (ix2 p 0)
          = Cert.Spec.runMax (V c main_v0) (V c main_v1) (V c main_v2) r ((t.val - 1) % 16)) :
    (outsAt1 V c t.val t.isLt).1 (ix2 p 0) = Cert.Spec.runMin (V c main_v0) (V c main_v1) (V c main_v2) r (t.val % 16)
    ∧ (outsAt1 V c t.val t.isLt).2 (ix2 p 0) = Cert.Spec.runMax (V c main_v0) (V c main_v1) (V c main_v2) r (t.val % 16) := by
  have hq : t.val % 16 < 16 := Nat.mod_lt _ (by decide)
  have hqq : t.val % 16 = (t.val - 1) % 16 + 1 := by omega
  rw [outsAt1_B V c t h0]
  dsimp only
  rw [out1_B_4_eq, out1_B_5_eq]
  exact ⟨posStep_next _ _ _ (iblk1 V c 0 t) (iblk1 V c 1 t) (iblk1 V c 2 t) (iblk1 V c 3 t) _ r (t.val % 16) hq
      ((t.val - 1) % 16) hqq p ih.1
      (fun d => iblk1_0_apply V c t p d r hr) (fun k' d => iblk1_1_apply V c t k' d _ rfl)
      (iblk1_2_apply V c t p 0 r hr) (fun k' => iblk1_3_apply V c t 0 k' _ rfl),
    negStep_next _ _ _ (iblk1 V c 0 t) (iblk1 V c 1 t) (iblk1 V c 2 t) (iblk1 V c 3 t) _ r (t.val % 16) hq
      ((t.val - 1) % 16) hqq p ih.2
      (fun d => iblk1_0_apply V c t p d r hr) (fun k' d => iblk1_1_apply V c t k' d _ rfl)
      (iblk1_2_apply V c t p 0 r hr) (fun k' => iblk1_3_apply V c t 0 k' _ rfl)⟩

/-- After point n the two staging columns hold, at entry p, the running minimum and maximum of row
    r = (n / 16)·512 + p over the column tiles 0 … n % 16: by induction on the point. -/
theorem outsAt1_eq (V : (c : Dev nD) → (b : Ref sig .tc) → Buf (Elt Ideal) ((c : Thread nD τ).loc b)) (c : Dev nD) :
    ∀ (n : ℕ) (hn : n < cfg1.N) (p : Fin 512) (r : Fin 8192), r.val = n / 16 * 512 + p.val →
      (outsAt1 V c n hn).1 (ix2 p 0) = Cert.Spec.runMin (V c main_v0) (V c main_v1) (V c main_v2) r (n % 16)
      ∧ (outsAt1 V c n hn).2 (ix2 p 0) = Cert.Spec.runMax (V c main_v0) (V c main_v1) (V c main_v2) r (n % 16) := by
  intro n
  induction n with
  | zero =>
    intro hn p r hr
    exact outsAt1_first V c ⟨0, hn⟩ (Nat.zero_mod 16) p r hr
  | succ n ih =>
    intro hn p r hr
    by_cases h0 : (n + 1) % 16 = 0
    · exact outsAt1_first V c ⟨n + 1, hn⟩ h0 p r hr
    · exact outsAt1_next V c ⟨n + 1, hn⟩ h0 p r hr (ih (Nat.lt_of_succ_lt hn) p r (by omega))

/-! ## The write-backs and the arrays after the run -/

/-- What the array of minima ends holding: at row r the running minimum after all 16 column tiles. -/
def posArr (V : (c : Dev nD) → (b : Ref sig .tc) → Buf (Elt Ideal) ((c : Thread nD τ).loc b)) (c : Dev nD) : Buf (Elt Ideal) ((c : Thread nD τ).loc main_v3_0) :=
  (fun i : S8192x1.Idx => Cert.Spec.kpos (V c main_v0) (V c main_v1) (V c main_v2) ⟨(i 0).val, idx2_lt0 i⟩ : S8192x1.Idx → EReal)

/-- What the array of maxima ends holding. -/
def negArr (V : (c : Dev nD) → (b : Ref sig .tc) → Buf (Elt Ideal) ((c : Thread nD τ).loc b)) (c : Dev nD) : Buf (Elt Ideal) ((c : Thread nD τ).loc main_v3_1) :=
  (fun i : S8192x1.Idx => Cert.Spec.kneg (V c main_v0) (V c main_v1) (V c main_v2) ⟨(i 0).val, idx2_lt0 i⟩ : S8192x1.Idx → EReal)

/-- A last column tile (t % 16 = 15) writes back its block of the running minima after 16 tiles. -/
theorem flushed4_eq (V : (c : Dev nD) → (b : Ref sig .tc) → Buf (Elt Ideal) ((c : Thread nD τ).loc b)) (c : Dev nD) (t : Fin cfg1.N) (hf : (cfg1.win 4).flush t = true) :
    (dat1 V c).flushed 4 t = ((cfg1.win 4).blk t).view.read (Elt Ideal) (posArr V c) := by
  have h15 : t.val % 16 = 15 := (flush1_4 t).mp hf
  have h256 := lt256 t
  show (cfg1.win 4).cut (grid1.coords t) ((dat1 V c).after 4 t) = _
  rw [after1_4]
  refine col_ext (α := EReal) _ _ fun p => ?_
  have hr : (tileRow (t.val / 16) (by omega) p).val = t.val / 16 * 512 + p.val := rfl
  refine Eq.trans ?_ (read_blk4_apply c (posArr V c) t p 0 _ hr).symm
  refine ((outsAt1_eq V c t.val t.isLt p _ hr).1).trans ?_
  rw [h15]
  rfl

theorem flushed5_eq (V : (c : Dev nD) → (b : Ref sig .tc) → Buf (Elt Ideal) ((c : Thread nD τ).loc b)) (c : Dev nD) (t : Fin cfg1.N) (hf : (cfg1.win 5).flush t = true) :
    (dat1 V c).flushed 5 t = ((cfg1.win 5).blk t).view.read (Elt Ideal) (negArr V c) := by
  have h15 : t.val % 16 = 15 := (flush1_5 t).mp hf
  have h256 := lt256 t
  show (cfg1.win 5).cut (grid1.coords t) ((dat1 V c).after 5 t) = _
  rw [after1_5]
  refine col_ext (α := EReal) _ _ fun p => ?_
  have hr : (tileRow (t.val / 16) (by omega) p).val = t.val / 16 * 512 + p.val := rfl
  refine Eq.trans ?_ (read_blk5_apply c (negArr V c) t p 0 _ hr).symm
  refine ((outsAt1_eq V c t.val t.isLt p _ hr).2).trans ?_
  rw [h15]
  rfl

/-- A row is in point t's block of the minima iff it is among the block's 512 rows. -/
theorem mem_blk4 (t : Fin cfg1.N) (i : S8192x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v3_0).slice (win1_4.rect t)).set ↔ _
  rw [View.set_slice_whole, Rect.mem_set_unit]
  exact Iff.rfl

theorem mem_blk5 (t : Fin cfg1.N) (i : S8192x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v3_1).slice (win1_5.rect t)).set ↔ _
  rw [View.set_slice_whole, Rect.mem_set_unit]
  exact Iff.rfl

/-- Row i is written back by the last column tile of its row tile: point (i / 512)·16 + 15. -/
theorem cover4 (i : S8192x1.Idx) : ∃ t : Fin cfg1.N, (cfg1.win 4).flush t = true ∧ i ∈ ((cfg1.win 4).blk t).view.set := by
  have hi0 : (i 0).val < 8192 := idx2_lt0 i
  have hi1 : (i 1).val < 1 := idx2_lt1 i
  have hN : cfg1.N = 256 := N_1
  have ht : ∃ t : Fin cfg1.N, t.val = (i 0).val / 512 * 16 + 15 := ⟨⟨(i 0).val / 512 * 16 + 15, by rw [hN]; omega⟩, rfl⟩
  obtain ⟨t, ht⟩ := ht
  refine ⟨t, (flush1_4 t).mpr (by rw [ht]; omega), ?_⟩
  obtain ⟨-, -, -, -, -, -, -, -, e0, e1, -⟩ := idx1_facts t
  rw [mem_blk4]
  intro a
  match a with
  | ⟨0, _⟩ => show win1_4.index t (0 : Fin 2) * 512 ≤ (i 0).val ∧ (i 0).val < win1_4.index t (0 : Fin 2) * 512 + 512; rw [e0, ht]; omega
  | ⟨1, _⟩ => show win1_4.index t (1 : Fin 2) * 1 ≤ (i 1).val ∧ (i 1).val < win1_4.index t (1 : Fin 2) * 1 + 1; rw [e1]; omega

theorem cover5 (i : S8192x1.Idx) : ∃ t : Fin cfg1.N, (cfg1.win 5).flush t = true ∧ i ∈ ((cfg1.win 5).blk t).view.set := by
  have hi0 : (i 0).val < 8192 := idx2_lt0 i
  have hi1 : (i 1).val < 1 := idx2_lt1 i
  have hN : cfg1.N = 256 := N_1
  have ht : ∃ t : Fin cfg1.N, t.val = (i 0).val / 512 * 16 + 15 := ⟨⟨(i 0).val / 512 * 16 + 15, by rw [hN]; omega⟩, rfl⟩
  obtain ⟨t, ht⟩ := ht
  refine ⟨t, (flush1_5 t).mpr (by rw [ht]; omega), ?_⟩
  obtain ⟨-, -, -, -, -, -, -, -, -, -, e0, e1⟩ := idx1_facts t
  rw [mem_blk5]
  intro a
  match a with
  | ⟨0, _⟩ => show win1_5.index t (0 : Fin 2) * 512 ≤ (i 0).val ∧ (i 0).val < win1_5.index t (0 : Fin 2) * 512 + 512; rw [e0, ht]; omega
  | ⟨1, _⟩ => show win1_5.index t (1 : Fin 2) * 1 ≤ (i 1).val ∧ (i 1).val < win1_5.index t (1 : Fin 2) * 1 + 1; rw [e1]; omega

/-- The array of minima after the second call: at row r the running minimum after all 16 column tiles. -/
theorem triplet_pos (V : (c : Dev nD) → (b : Ref sig .tc) → Buf (Elt Ideal) ((c : Thread nD τ).loc b)) (c : Dev nD) (r : Fin 8192) :
    (dat1 (F := Ideal) V c).arrAt 4 cfg1.N (ix2 r 0) = Cert.Spec.kpos (V c main_v0) (V c main_v1) (V c main_v2) r := by
  have h : (dat1 (F := Ideal) V c).arrAt 4 cfg1.N = posArr V c :=
    (dat1 (F := Ideal) V c).arrAt_eq_of_cover 4 (posArr V c) (flushed4_eq V c) (fun i => cover4 i)
  exact (congrFun h (ix2 r 0)).trans rfl

/-- The array of maxima after the second call: at row r the running maximum after all 16 column tiles. -/
theorem triplet_neg (V : (c : Dev nD) → (b : Ref sig .tc) → Buf (Elt Ideal) ((c : Thread nD τ).loc b)) (c : Dev nD) (r : Fin 8192) :
    (dat1 (F := Ideal) V c).arrAt 5 cfg1.N (ix2 r 0) = Cert.Spec.kneg (V c main_v0) (V c main_v1) (V c main_v2) r := by
  have h : (dat1 (F := Ideal) V c).arrAt 5 cfg1.N = negArr V c :=
    (dat1 (F := Ideal) V c).arrAt_eq_of_cover 5 (negArr V c) (flushed5_eq V c) (fun i => cover5 i)
  exact (congrFun h (ix2 r 0)).trans rfl

end Cert.KernelIdeal.Fr

end
-- ==== Proof.KernelTail.lean ====
/-
  The kernel program's host operations, read at the extended reals.

  Before its second call the program reshapes the labels l : i32[8192] to a column [8192, 1] and to a row [1, 8192]:
  the column at (r, 0) is l r, the row at (0, k) is l k.  After the second call it closes with
    loss = (0 + Σ_r max(neg r - pos r + 1/4, 0)) / 8192,
  where pos and neg are the two [8192, 1] columns the second call leaves, each read at (r, 0).
-/
import proofs.«116771_j2688649527615_1_alg».proof.Proof.Gen.KernelIdeal.Regions
import proofs.«116771_j2688649527615_1_alg».proof.Proof.Spec
import Idealize.ShloMosaic.Lib.StableHlo.Run
import Idealize.ShloMosaic.Lib.ValueIdx
import Idealize.ShloMosaic.Lib.ValueIdxRank1
import Idealize.ShloMosaic.Lib.Pipeline.Value
import Idealize.ShloMosaic.Lib.ValueLayout
import Idealize.ShloMosaic.PureOps.Ideal.Laws

noncomputable section

namespace Cert.KernelIdeal.Tail

open Cert.KernelIdeal Cert.KernelIdeal.Gen Idealize.ShloMosaic Idealize.ShloMosaic.TcCoe Idealize.ShloMosaic.ValueIdx
open scoped BigOperators

/-! ## A vector as a column, a column as a vector, read at an index -/

section Layout

variable {α : Type}

/-- A vector [a] cast to a column [a, 1] reads, at (i, u), the vector at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to a vector [a] reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-! ## The labels as a column and as a row -/

/-- The labels cast to a column are the specification's column: l at the row index. -/
theorem col_eq (l : Cert.Spec.Lab) : (shapeCast S8192x1 l shapeCasts_S8192_S8192x1 : Cert.Spec.LabCol) = Cert.Spec.colOf l := by
  funext j
  obtain ⟨p, q, rfl⟩ : ∃ (p : Fin 8192) (q : Fin 1), j = ix2 p q := ⟨j 0, j 1, eq_ix2 j⟩
  exact shapeCast_a_a1_apply l shapeCasts_S8192_S8192x1 p q

/-- The labels cast to a row are the specification's row: l at the column index. -/
theorem row_eq (l : Cert.Spec.Lab) : (shapeCast S1x8192 l shapeCasts_S8192_S1x8192 : Cert.Spec.LabRow) = Cert.Spec.rowOf l := by
  funext j
  obtain ⟨p, q, rfl⟩ : ∃ (p : Fin 1) (q : Fin 8192), j = ix2 p q := ⟨j 0, j 1, eq_ix2 j⟩
  exact shapeCast_a_1a_apply l shapeCasts_S8192_S1x8192 p q

/-! ## The closing arithmetic as one function of the two columns -/

/-- The host's sum over the 8192 rows from an initial scalar: the scalar plus the sum over the rows. -/
theorem sum_rows (y : FVec Ideal S8192 .f32) (init : FVec Ideal S_ .f32) (j : S_.Idx) :
    Host.reduceAdd y init reducesTo_S8192_S_d0 h_S_ j = init (Shape.Idx.first h_S_) + ∑ r : Fin 8192, y (ix1 r) := by
  simp only [Host.reduceAdd, Ideal.hostReduceAdd_def]
  rw [Ideal.hostReduceAdd_total reducesTo_S8192_S_d0 (fun b => b.elim0)]
  exact congrArg (_ + ·) (Equiv.sum_comp (idxEquiv1 (n := 8192)).symm y).symm

/-- The closing arithmetic on the two columns p (the minima) and n (the maxima): the mean over rows of
    max(n - p + 1/4, 0), the sum started at the zero word and divided by the word 8192.0. -/
def tail (p n : (⟨S8192x1, .f32⟩ : BufTy).Contents (Elt Ideal)) : (⟨S_, .f32⟩ : BufTy).Contents (Elt Ideal) :=
  Host.divf (F := Ideal)
    (Host.reduceAdd (F := Ideal)
      (maximumf
        (addf (subf (shapeCast S8192 n shapeCasts_S8192x1_S8192) (shapeCast S8192 p shapeCasts_S8192x1_S8192))
          (broadcastInDim S8192 ![] bcast_S_S8192 (constant (F := Ideal) S_ .f32 0x3E800000#32)))
        (broadcastInDim S8192 ![] bcast_S_S8192 (constant (F := Ideal) S_ .f32 0x00000000#32)))
      (constant (F := Ideal) S_ .f32 0x00000000#32) reducesTo_S8192_S_d0 h_S_)
    (constant (F := Ideal) S_ .f32 0x46000000#32)

/-- It is the specification's closing reduction of the columns' entries at (r, 0). -/
theorem tail_apply (p n : (⟨S8192x1, .f32⟩ : BufTy).Contents (Elt Ideal)) (j : S_.Idx) :
    tail p n j = Cert.Spec.lossOf (fun r => (p : S8192x1.Idx → EReal) (ix2 r 0)) (fun r => (n : S8192x1.Idx → EReal) (ix2 r 0)) := by
  unfold tail
  show FloatOps.hostDivf (Host.reduceAdd (F := Ideal) _ _ reducesTo_S8192_S_d0 h_S_ j) (constant (F := Ideal) S_ .f32 0x46000000#32 j) = _
  rw [sum_rows, Ideal.hostDivf_def, constant_apply, constant_apply]
  unfold Cert.Spec.lossOf Cert.Spec.zero32 Cert.Spec.quarter Cert.Spec.count
  refine congrArg (fun s => Ideal.div (Ideal.ofBits .f32 0x00000000#32 + s) (Ideal.ofBits .f32 0x46000000#32)) (Finset.sum_congr rfl fun r _ => ?_)
  rw [maximumf_apply, addf_apply, subf_apply, shapeCast_a1_a_apply, shapeCast_a1_a_apply,
    broadcastInDim_apply _ bcast_S_S8192 _ (ix1 r) ix0 (fun a => a.elim0),
    broadcastInDim_apply _ bcast_S_S8192 _ (ix1 r) ix0 (fun a => a.elim0), constant_apply, constant_apply]

/-! ## The program's valuations at the references the two calls and the result read -/

variable (m : (ℓ : Loc nD τ sig) → Buf (Elt Ideal) ℓ) (outs : Outs (F := Ideal)) (c : Dev nD)

/-- The first call reads the features as launched. -/
theorem entry_arg0 : V0 m c main_arg0 = m ((c : Thread nD τ).loc main_arg0) := rfl

/-- The second call reads what the first call left. -/
theorem entry_v0 : V2 m outs c main_v0 = outs 1 main_v0 c := by
  rw [V2_of m outs c main_v0 (by decide)]
  exact Function.update_self ..

/-- The labels reach the reshapes as launched. -/
theorem V1_arg1 : V1 m outs c main_arg1 = m ((c : Thread nD τ).loc main_arg1) :=
  (V1_of m outs c main_arg1 (by decide)).trans rfl

/-- The second call's label column: l at the row index. -/
theorem entry_v1 : (V2 m outs c main_v1 : Cert.Spec.LabCol) = Cert.Spec.colOf (m ((c : Thread nD τ).loc main_arg1)) := by
  have e : V2 m outs c main_v1 = shapeCast S8192x1 (V1 m outs c main_arg1) shapeCasts_S8192_S8192x1 := by
    show StableHlo.after hostOps1 _ (Proc.devRef .tc main_v1) = _
    after_results
    rfl
  rw [e, V1_arg1]
  exact col_eq _

/-- The second call's label row: l at the column index. -/
theorem entry_v2 : (V2 m outs c main_v2 : Cert.Spec.LabRow) = Cert.Spec.rowOf (m ((c : Thread nD τ).loc main_arg1)) := by
  have e : V2 m outs c main_v2 = shapeCast S1x8192 (V1 m outs c main_arg1) shapeCasts_S8192_S1x8192 := by
    show StableHlo.after hostOps1 _ (Proc.devRef .tc main_v2) = _
    after_results
    rfl
  rw [e, V1_arg1]
  exact row_eq _

/-- After the second call its two outputs hold what it left. -/
theorem V3_v3_1 : V3 m outs c main_v3_1 = outs 3 main_v3_1 c := Function.update_self ..
theorem V3_v3_0 : V3 m outs c main_v3_0 = outs 3 main_v3_0 c := by
  show Function.update (Function.update (V2 m outs c) main_v3_0 (outs 3 main_v3_0 c)) main_v3_1 (outs 3 main_v3_1 c) (Proc.devRef .tc main_v3_0) = _
  rw [Function.update_of_ne (StableHlo.devRef_ne_of_ne (by decide))]
  exact Function.update_self ..

/-- The result buffer holds the closing arithmetic of the second call's two outputs. -/
theorem v11_eq : V6 m outs c main_v11 = tail (outs 3 main_v3_0 c) (outs 3 main_v3_1 c) := by
  show StableHlo.after hostOps2_2 _ (Proc.devRef .tc main_v11) = _
  after_results
  simp only [StableHlo.TRef.ofBuf, StableHlo.TRef.toBuf, cast_eq]
  rw [V3_v3_1, V3_v3_0]
  rfl

/-- The program's result: the mean over rows of max(neg - pos + 1/4, 0) of the second call's two outputs read at (r, 0). -/
theorem tail_result : (V6 m outs c main_v11 : (⟨0, ![]⟩ : Shape).Idx → EReal)
    = fun _ => Cert.Spec.lossOf (fun r => (outs 3 main_v3_0 c : (⟨2, ![8192, 1]⟩ : Shape).Idx → EReal) (ix2 r 0))
        (fun r => (outs 3 main_v3_1 c : (⟨2, ![8192, 1]⟩ : Shape).Idx → EReal) (ix2 r 0)) := by
  rw [v11_eq]
  funext j
  exact tail_apply _ _ j

end Cert.KernelIdeal.Tail

end
-- ==== Proof.KernelValue.lean ====
/-
  The kernel program's result at the extended reals: the closing host reduction of what the extrema call leaves, which
  is the running extrema over the scaled rows the first call leaves — the specification's kernelLoss of the two
  argument buffers.
-/
import proofs.«116771_j2688649527615_1_alg».proof.Proof.MainRun
import proofs.«116771_j2688649527615_1_alg».proof.Proof.NormValue
import proofs.«116771_j2688649527615_1_alg».proof.Proof.TripletValue
import proofs.«116771_j2688649527615_1_alg».proof.Proof.KernelTail

noncomputable section

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The first call leaves the scaled rows: entry (r, d) is x[r, d] · rsqrt(Σ x[r, ·]²). -/
theorem o1_eq : (o1 (F := Ideal) m c : Cert.Spec.Feat) = Cert.Spec.unitArr (m ((c : Thread nD τ).loc main_arg0)) := by
  funext j
  rw [eq_ix2 j]
  exact norm_arr (E0 m) c (j 0) (j 1)

/-- What the second call finds: the scaled rows, the labels as a column and as a row. -/
theorem E1_v0 : (E1 (F := Ideal) m c main_v0 : Cert.Spec.Feat) = Cert.Spec.unitArr (m ((c : Thread nD τ).loc main_arg0)) :=
  (Cert.KernelIdeal.Tail.entry_v0 m (outs1 m) c).trans ((outs1_v0 m c).trans (o1_eq m c))
theorem E1_v1 : (E1 (F := Ideal) m c main_v1 : Cert.Spec.LabCol) = Cert.Spec.colOf (m ((c : Thread nD τ).loc main_arg1)) :=
  Cert.KernelIdeal.Tail.entry_v1 m (outs1 m) c
theorem E1_v2 : (E1 (F := Ideal) m c main_v2 : Cert.Spec.LabRow) = Cert.Spec.rowOf (m ((c : Thread nD τ).loc main_arg1)) :=
  Cert.KernelIdeal.Tail.entry_v2 m (outs1 m) c

/-- The result buffer after the run: the mean of max(neg − pos + 1/4, 0) over the rows, pos and neg the running extrema
    after all sixteen column tiles. -/
theorem kernel_result :
    (V6 m (outsK m) c main_v11 : (⟨0, ![]⟩ : Shape).Idx → EReal)
      = fun _ => Cert.Spec.kernelLoss (m ((c : Thread nD τ).loc main_arg0)) (m ((c : Thread nD τ).loc main_arg1)) := by
  rw [Cert.KernelIdeal.Tail.tail_result m (outsK m) c]
  funext _
  unfold Cert.Spec.kernelLoss
  refine congrArg₂ Cert.Spec.lossOf (funext fun r => ?_) (funext fun r => ?_)
  · rw [outsK_v3_0]
    refine (triplet_pos (E1 m) c r).trans ?_
    rw [E1_v0, E1_v1, E1_v2]
  · rw [outsK_v3_1]
    refine (triplet_neg (E1 m) c r).trans ?_
    rw [E1_v0, E1_v1, E1_v2]

end Cert.KernelIdeal.Fr

end
-- ==== Proof.RefValue.lean ====
/-
  The reference's run read as the specification's refLoss.

  Stage by stage, index by index: the scaled entry x[r, d] / sqrt(0 + Σ_d x[r, d]²) is unitR; the product of the
  scaled array with its transpose is simR; the two masked arrays are the specification's candidates (the inner product
  where the labels agree and big elsewhere; -big where they agree and the inner product elsewhere); the two row
  reductions from +∞ and -∞ are the folds rpos and rneg; the tail (difference, plus a quarter, clamped at zero,
  summed from the zero word, divided by the word 8192.0) is lossOf.
-/
import proofs.«116771_j2688649527615_1_alg».proof.Proof.RefRead
import proofs.«116771_j2688649527615_1_alg».proof.Proof.Spec
import Idealize.ShloMosaic.PureOps.Reduce
import Idealize.ShloMosaic.PureOps.Ideal.Laws
import Idealize.ShloMosaic.Lib.ValueIdx
import Idealize.ShloMosaic.Lib.Affine

noncomputable section

namespace Cert.ReferenceIdeal.RefValue

open Cert.ReferenceIdeal Cert.ReferenceIdeal.Gen Cert.ReferenceIdeal.ReadP Idealize.ShloMosaic Idealize.ShloMosaic.ValueIdx
open scoped BigOperators

/-! ## Small facts about words and selection -/

/-- Selecting on a word comparison for equality is the conditional on the equality. -/
theorem select_cmpi_eq {α : Type} (a b : BitVec 32) (u v : α) :
    Scalar.select (IntOp.cmpi .eq a b) u v = if a = b then u else v := by
  unfold Scalar.select
  by_cases h : a = b
  · rw [if_pos h]
    exact if_pos (IntOp.cmpi_eq.2 h)
  · rw [if_neg h]
    exact if_neg (fun hc => h (IntOp.cmpi_eq.1 hc))

/-- The word 0x7F800000 is +∞ and the word 0xFF800000 is -∞. -/
theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

/-! ## The scaled rows -/

/-- The reference's scaled array at (r, d) is the specification's scaled entry. -/
theorem unit_apply (x : FVec Ideal S8192x256 .f32) (r : Fin 8192) (d : Fin 256) :
    val_main_v2 (F := Ideal) x (ix2 r d) = Cert.Spec.unitR x r d := by
  have e1 : ∀ k : Fin 256, idx_main_call0_v1 (idx_main_call0_v2 (idx_main_v1 (ix2 r d))) k = ix2 r k := fun k =>
    funext fun a => Fin.ext (by match a with | ⟨0, _⟩ => rfl | ⟨1, _⟩ => rfl)
  rw [val_main_v2_apply, val_main_v1_apply, val_main_v0_apply, val_main_call0_v2_apply, val_main_call0_v1_apply]
  simp only [val_main_call0_v0_apply, val_main_call0_cst_apply, e1, Ideal.hostDivf_def, Ideal.hostUnary_sqrt_def,
    Ideal.mulf_def, Ideal.ofBits_def]
  rfl

/-! ## The similarity -/

/-- The product of the scaled array with its transpose, at (r, k), is the inner product of the scaled rows r and k. -/
theorem sim_apply (x : FVec Ideal S8192x256 .f32) (r k : Fin 8192) :
    val_main_v4 (F := Ideal) x (ix2 r k) = Cert.Spec.simR x r k := by
  have el : ∀ d : Fin 256, lidx_main_v4 (ix2 r k) d = ix2 r d := fun d =>
    funext fun a => Fin.ext (by match a with | ⟨0, _⟩ => rfl | ⟨1, _⟩ => rfl)
  have er : ∀ d : Fin 256, idx_main_v3 (ridx_main_v4 (ix2 r k) d) = ix2 k d := fun d =>
    funext fun a => Fin.ext (by match a with | ⟨0, _⟩ => rfl | ⟨1, _⟩ => rfl)
  rw [val_main_v4_apply]
  unfold Cert.Spec.simR
  refine Finset.sum_congr rfl fun d _ => ?_
  rw [val_main_v3_apply, el, er, unit_apply, unit_apply]

/-! ## The mask and the two masked arrays -/

/-- The comparison of the label column with the label row, at (r, k), compares l r with l k. -/
theorem mask_apply (l : IVec S8192 32) (r k : Fin 8192) :
    val_main_v9 (F := Ideal) l (ix2 r k) = IntOp.cmpi .eq (l (ix1 r)) (l (ix1 k)) := by
  have e7 : idx_main_v5 (idx_main_v7 (ix2 r k)) = ix1 r :=
    funext fun a => Fin.ext (by match a with | ⟨0, _⟩ => rfl)
  have e8 : idx_main_v6 (idx_main_v8 (ix2 r k)) = ix1 k :=
    funext fun a => Fin.ext (by match a with | ⟨0, _⟩ => rfl)
  rw [val_main_v9_apply, val_main_v7_apply, val_main_v8_apply, val_main_v5_apply, val_main_v6_apply, e7, e8]

/-- The array the minimum is taken over: the inner product where the labels agree, big elsewhere. -/
theorem posArr_apply (x : FVec Ideal S8192x256 .f32) (l : IVec S8192 32) (r k : Fin 8192) :
    val_main_v10 (F := Ideal) x l (ix2 r k)
      = if l (ix1 r) = l (ix1 k) then Cert.Spec.simR x r k else Cert.Spec.big := by
  rw [val_main_v10_apply, mask_apply, sim_apply, val_main_call1_v0_apply, val_main_cst_apply, select_cmpi_eq]
  rfl

/-- The array the maximum is taken over: -big where the labels agree, the inner product elsewhere. -/
theorem negArr_apply (x : FVec Ideal S8192x256 .f32) (l : IVec S8192 32) (r k : Fin 8192) :
    val_main_v13 (F := Ideal) x l (ix2 r k)
      = if l (ix1 r) = l (ix1 k) then -Cert.Spec.big else Cert.Spec.simR x r k := by
  rw [val_main_v13_apply, mask_apply, sim_apply, val_main_call2_v0_apply, val_main_v12_apply, val_main_cst_1_apply,
    select_cmpi_eq]
  rfl

/-! ## The two row reductions -/

/-- Row r with column k put back is (r, k). -/
theorem lift_row (h : S8192x8192.Reduces [1] S8192) (r : Fin 8192) (k : Fin (S8192x8192.size 1)) :
    h.lift (ix1 r) k = ix2 r (⟨k.val, k.isLt⟩ : Fin 8192) :=
  funext fun a => Fin.ext (by match a with | ⟨0, _⟩ => rfl | ⟨1, _⟩ => rfl)

/-- A row reduction by minimum from +∞ of an [8192, 8192] array whose row r is g: the fold of min from +∞ over g. -/
theorem rowMin_fold (y : FVec Ideal S8192x8192 .f32) (g : Fin 8192 → EReal) (r : Fin 8192)
    (hy : ∀ k : Fin 8192, y (ix2 r k) = g k) :
    Host.reduce FloatOps.minimumf y (val_main_cst_0 (F := Ideal)) reducesTo_S8192x8192_S8192_d1 h_S_ (ix1 r)
      = (Finset.univ : Finset (Fin 8192)).fold min (⊤ : EReal) g := by
  have h : S8192x8192.Reduces [1] S8192 := by decide
  rw [Host.reduce_eq_fold_single FloatOps.minimumf y _ reducesTo_S8192x8192_S8192_d1 h h_S_]
  have hf : (y ∘ h.lift (ix1 r)) = g :=
    funext fun k => by
      show y (h.lift (ix1 r) k) = _
      rw [lift_row h r k]
      exact hy _
  have hi : val_main_cst_0 (F := Ideal) (Shape.Idx.first h_S_) = (⊤ : EReal) := ofBits_posInf
  rw [hi]
  exact congrArg (fun f => Finset.fold min (⊤ : EReal) f (Finset.univ : Finset (Fin 8192))) hf

/-- A row reduction by maximum from -∞ of an [8192, 8192] array whose row r is g: the fold of max from -∞ over g. -/
theorem rowMax_fold (y : FVec Ideal S8192x8192 .f32) (g : Fin 8192 → EReal) (r : Fin 8192)
    (hy : ∀ k : Fin 8192, y (ix2 r k) = g k) :
    Host.reduce FloatOps.maximumf y (val_main_cst_2 (F := Ideal)) reducesTo_S8192x8192_S8192_d1 h_S_ (ix1 r)
      = (Finset.univ : Finset (Fin 8192)).fold max (⊥ : EReal) g := by
  have h : S8192x8192.Reduces [1] S8192 := by decide
  rw [Host.reduce_eq_fold_single FloatOps.maximumf y _ reducesTo_S8192x8192_S8192_d1 h h_S_]
  have hf : (y ∘ h.lift (ix1 r)) = g :=
    funext fun k => by
      show y (h.lift (ix1 r) k) = _
      rw [lift_row h r k]
      exact hy _
  have hi : val_main_cst_2 (F := Ideal) (Shape.Idx.first h_S_) = (⊥ : EReal) := ofBits_negInf
  rw [hi]
  exact congrArg (fun f => Finset.fold max (⊥ : EReal) f (Finset.univ : Finset (Fin 8192))) hf

/-- The minimum over the columns from +∞ is the specification's fold. -/
theorem pos_apply (x : FVec Ideal S8192x256 .f32) (l : IVec S8192 32) (r : Fin 8192) :
    val_main_v11 (F := Ideal) x l (ix1 r) = Cert.Spec.rpos x l r := by
  unfold val_main_v11 Cert.Spec.rpos
  exact rowMin_fold (val_main_v10 (F := Ideal) x l) _ r (fun k => posArr_apply x l r k)

/-- The maximum over the columns from -∞ is the specification's fold. -/
theorem neg_apply (x : FVec Ideal S8192x256 .f32) (l : IVec S8192 32) (r : Fin 8192) :
    val_main_v14 (F := Ideal) x l (ix1 r) = Cert.Spec.rneg x l r := by
  unfold val_main_v14 Cert.Spec.rneg
  exact rowMax_fold (val_main_v13 (F := Ideal) x l) _ r (fun k => negArr_apply x l r k)

/-! ## The tail -/

/-- The clamped margin of row r. -/
theorem relu_apply (x : FVec Ideal S8192x256 .f32) (l : IVec S8192 32) (r : Fin 8192) :
    val_main_v18 (F := Ideal) x l (ix1 r)
      = max (Cert.Spec.rneg x l r - Cert.Spec.rpos x l r + Cert.Spec.quarter) Cert.Spec.zero32 := by
  rw [val_main_v18_apply, val_main_v17_apply, val_main_v15_apply, neg_apply, pos_apply, val_main_v16_apply,
    val_main_cst_3_apply, val_main_call3_v0_apply, val_main_call3_cst_apply]
  rfl

/-- The one-coordinate indices are the rows. -/
def rowEquiv : Fin 8192 ≃ S8192.Idx where
  toFun := ix1
  invFun := fun j => j 0
  left_inv := fun _ => rfl
  right_inv := fun j => (eq_ix1 j).symm

/-- The reference's result is the specification's. -/
theorem result_eq (x : FVec Ideal S8192x256 .f32) (l : IVec S8192 32) :
    val_main_v20 (F := Ideal) x l = fun _ => Cert.Spec.refLoss x l := by
  funext i
  rw [val_main_v20_apply, val_main_v19_apply, val_main_cst_4_apply, val_main_cst_5_apply,
    ← Equiv.sum_comp rowEquiv (val_main_v18 (F := Ideal) x l)]
  have hs : ∀ r : Fin 8192, val_main_v18 (F := Ideal) x l (rowEquiv r)
      = max (Cert.Spec.rneg x l r - Cert.Spec.rpos x l r + Cert.Spec.quarter) Cert.Spec.zero32 :=
    fun r => relu_apply x l r
  simp only [hs]
  rfl

end Cert.ReferenceIdeal.RefValue

end
-- ==== Proof.SpecLaws.lean ====
/-
  The laws of the specification: the kernel's loss (rows scaled by x · rsqrt(Σ x²), extrema taken tile by tile from
  the largest finite f32 and its negative) is the reference's loss (rows scaled by x / sqrt(Σ x²), extrema taken over
  all columns at once from +∞ and -∞), for finite features whose rows all have a positive squared length.

  The road: under the hypotheses every entry is a real and every squared length a positive real s, so both scalings
  are the real x · (√s)⁻¹; a scaled row has inner product 1 with itself, which is at most big, so starting the running
  minimum at big changes nothing, and the diagonal's candidate for the maximum is -big itself, so starting the running
  maximum there changes nothing; the 16 tiles of 512 columns cover the 8192 columns.
-/
import proofs.«116771_j2688649527615_1_alg».proof.Proof.Spec
import Mathlib.Data.Finset.Fold

noncomputable section

namespace Cert.Spec

open Idealize.ShloMosaic Idealize.ShloMosaic.ValueIdx
open scoped BigOperators

/-! ## The constants -/

/-- The zero word is 0. -/
theorem zero32_eq : zero32 = 0 := by simp [zero32, Ideal.ofBits, Ideal.ieee]

/-- The largest finite f32 as a real: (2²⁴ - 1) · 2¹⁰⁴. -/
def bigR : ℝ := 16777215 * (2 : ℝ) ^ (104 : ℤ)

theorem big_eq : big = (bigR : EReal) := by
  simp [big, bigR, Ideal.ofBits, Ideal.ieee, -EReal.coe_mul]

theorem nbig_eq : nbig = ((-bigR : ℝ) : EReal) := by
  simp [nbig, bigR, Ideal.ofBits, Ideal.ieee, -EReal.coe_mul]

/-- The word of -big is the negative of the word of big. -/
theorem nbig_eq_neg_big : nbig = -big := by rw [nbig_eq, big_eq, EReal.coe_neg]

theorem one_le_bigR : (1 : ℝ) ≤ bigR := by
  unfold bigR
  have h : (1 : ℝ) ≤ (2 : ℝ) ^ (104 : ℤ) := one_le_zpow₀ (by norm_num) (by norm_num)
  linarith

/-- 1 ≤ big. -/
theorem one_le_big : (1 : EReal) ≤ big := by
  rw [big_eq]; exact_mod_cast one_le_bigR

/-! ## The two scalings are one real -/

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The entry x[r, d] as a real (its value when it is finite). -/
def xr (x : Feat) (r : Fin 8192) (d : Fin 256) : ℝ := (x (ix2 r d)).toReal

/-- The squared length of row r as a real. -/
def sR (x : Feat) (r : Fin 8192) : ℝ := ∑ d : Fin 256, xr x r d * xr x r d

/-- The scaled entry as a real: x[r, d] · (√s)⁻¹. -/
def uR (x : Feat) (r : Fin 8192) (d : Fin 256) : ℝ := xr x r d * (Real.sqrt (sR x r))⁻¹

/-- The inner product of the kernel's scaled rows, entry by entry. -/
theorem dot_unitArr (x : Feat) (r k : Fin 8192) : dot (unitArr x) r k = ∑ d : Fin 256, unitK x r d * unitK x k d := rfl

section finite
variable (x : Feat) (hfin : ∀ j, x j ≠ ⊤ ∧ x j ≠ ⊥)
include hfin

theorem x_eq (r : Fin 8192) (d : Fin 256) : x (ix2 r d) = (xr x r d : EReal) :=
  (EReal.coe_toReal (hfin _).1 (hfin _).2).symm

theorem rowSq_eq (r : Fin 8192) : rowSq x r = (sR x r : EReal) := by
  unfold rowSq sR
  rw [coe_sum]
  refine Finset.sum_congr rfl fun d _ => ?_
  rw [x_eq x hfin, EReal.coe_mul]

variable (hpos : ∀ r, 0 < rowSq x r)
include hpos

theorem sR_pos (r : Fin 8192) : 0 < sR x r := by
  have h := hpos r
  rw [rowSq_eq x hfin] at h
  exact_mod_cast h

theorem sqrt_sR_ne (r : Fin 8192) : Real.sqrt (sR x r) ≠ 0 :=
  (Real.sqrt_pos.2 (sR_pos x hfin hpos r)).ne'

/-- The kernel's scaled entry is the real x · (√s)⁻¹. -/
theorem unitK_eq (r : Fin 8192) (d : Fin 256) : unitK x r d = (uR x r d : EReal) := by
  have hs := sR_pos x hfin hpos r
  unfold unitK uR
  rw [rowSq_eq x hfin, x_eq x hfin, Ideal.rsqrt_coe, if_neg (not_lt.2 hs.le), if_neg hs.ne', EReal.coe_mul]

/-- The reference's scaled entry is the same real. -/
theorem unitR_eq (r : Fin 8192) (d : Fin 256) : unitR x r d = (uR x r d : EReal) := by
  have hs := sR_pos x hfin hpos r
  unfold unitR uR
  rw [zero32_eq, zero_add, rowSq_eq x hfin, x_eq x hfin, Ideal.sqrt_coe, if_neg (not_lt.2 hs.le),
    Ideal.div_coe (sqrt_sR_ne x hfin hpos r), one_div, EReal.coe_mul]

theorem unitK_eq_unitR (r : Fin 8192) (d : Fin 256) : unitK x r d = unitR x r d := by
  rw [unitK_eq x hfin hpos, unitR_eq x hfin hpos]

/-- The kernel's inner product of scaled rows is the reference's similarity. -/
theorem dot_eq_simR (r k : Fin 8192) : dot (unitArr x) r k = simR x r k := by
  rw [dot_unitArr]
  unfold simR
  refine Finset.sum_congr rfl fun d _ => ?_
  rw [unitK_eq_unitR x hfin hpos, unitK_eq_unitR x hfin hpos]

/-- A scaled row has inner product 1 with itself. -/
theorem dot_self (r : Fin 8192) : dot (unitArr x) r r = 1 := by
  have hs := sR_pos x hfin hpos r
  have hq := sqrt_sR_ne x hfin hpos r
  rw [dot_unitArr]
  have h1 : (∑ d : Fin 256, unitK x r d * unitK x r d) = ((∑ d : Fin 256, uR x r d * uR x r d : ℝ) : EReal) := by
    rw [coe_sum]
    refine Finset.sum_congr rfl fun d _ => ?_
    rw [unitK_eq x hfin hpos, EReal.coe_mul]
  have h2 : (∑ d : Fin 256, uR x r d * uR x r d) = 1 := by
    have h3 : ∀ d : Fin 256, uR x r d * uR x r d = (xr x r d * xr x r d) * ((Real.sqrt (sR x r))⁻¹ * (Real.sqrt (sR x r))⁻¹) := by
      intro d; unfold uR; ring
    rw [Finset.sum_congr rfl (fun d _ => h3 d), ← Finset.sum_mul]
    show sR x r * _ = 1
    rw [← mul_inv, Real.mul_self_sqrt hs.le, mul_inv_cancel₀ hs.ne']
  rw [h1, h2, EReal.coe_one]

end finite

/-! ## The 16 tiles cover the 8192 columns -/

/-- Every column is column k % 512 of tile k / 512, and that tile is one of the 16. -/
theorem col_cover (k : Fin 8192) : ∃ j, j ≤ 15 ∧ ∃ k' : Fin 512, col j k' = k := by
  refine ⟨k.val / 512, ?_, ⟨k.val % 512, Nat.mod_lt _ (by norm_num)⟩, ?_⟩
  · have := k.isLt; omega
  · apply Fin.ext
    show (k.val / 512 * 512 + k.val % 512) % 8192 = k.val
    have := k.isLt; omega

section tiles
variable (y : Feat) (lc : LabCol) (lr : LabRow) (r : Fin 8192)

/-- What lies below the running minimum after tiles 0 … n: what lies below big and below every candidate of those tiles. -/
theorem le_runMin_iff (n : ℕ) (c : EReal) :
    c ≤ runMin y lc lr r n ↔ c ≤ big ∧ ∀ j, j ≤ n → ∀ k' : Fin 512, c ≤ posCand y lc lr r (col j k') := by
  induction n with
  | zero =>
    rw [runMin, le_min_iff, tileMin, Finset.le_fold_min]
    constructor
    · rintro ⟨h1, -, h2⟩
      refine ⟨h1, fun j hj k' => ?_⟩
      obtain rfl : j = 0 := by omega
      exact h2 k' (Finset.mem_univ _)
    · rintro ⟨h1, h2⟩
      exact ⟨h1, le_top, fun k' _ => h2 0 le_rfl k'⟩
  | succ n ih =>
    rw [runMin, le_min_iff, ih, tileMin, Finset.le_fold_min]
    constructor
    · rintro ⟨⟨h1, h2⟩, -, h3⟩
      refine ⟨h1, fun j hj k' => ?_⟩
      rcases Nat.lt_or_ge j (n + 1) with h | h
      · exact h2 j (by omega) k'
      · obtain rfl : j = n + 1 := by omega
        exact h3 k' (Finset.mem_univ _)
    · rintro ⟨h1, h2⟩
      exact ⟨⟨h1, fun j hj k' => h2 j (by omega) k'⟩, le_top, fun k' _ => h2 (n + 1) le_rfl k'⟩

/-- What lies above the running maximum after tiles 0 … n: what lies above -big and above every candidate of those tiles. -/
theorem runMax_le_iff (n : ℕ) (c : EReal) :
    runMax y lc lr r n ≤ c ↔ nbig ≤ c ∧ ∀ j, j ≤ n → ∀ k' : Fin 512, negCand y lc lr r (col j k') ≤ c := by
  induction n with
  | zero =>
    rw [runMax, max_le_iff, tileMax, Finset.fold_max_le]
    constructor
    · rintro ⟨h1, -, h2⟩
      refine ⟨h1, fun j hj k' => ?_⟩
      obtain rfl : j = 0 := by omega
      exact h2 k' (Finset.mem_univ _)
    · rintro ⟨h1, h2⟩
      exact ⟨h1, bot_le, fun k' _ => h2 0 le_rfl k'⟩
  | succ n ih =>
    rw [runMax, max_le_iff, ih, tileMax, Finset.fold_max_le]
    constructor
    · rintro ⟨⟨h1, h2⟩, -, h3⟩
      refine ⟨h1, fun j hj k' => ?_⟩
      rcases Nat.lt_or_ge j (n + 1) with h | h
      · exact h2 j (by omega) k'
      · obtain rfl : j = n + 1 := by omega
        exact h3 k' (Finset.mem_univ _)
    · rintro ⟨h1, h2⟩
      exact ⟨⟨h1, fun j hj k' => h2 j (by omega) k'⟩, bot_le, fun k' _ => h2 (n + 1) le_rfl k'⟩

/-- The running minimum after all 16 tiles is big met with the minimum over all 8192 columns at once. -/
theorem kpos_eq : kpos y lc lr r
    = min big ((Finset.univ : Finset (Fin 8192)).fold min (⊤ : EReal) (fun k => posCand y lc lr r k)) := by
  refine eq_of_forall_le_iff fun c => ?_
  rw [kpos, le_runMin_iff, le_min_iff, Finset.le_fold_min]
  constructor
  · rintro ⟨h1, h2⟩
    refine ⟨h1, le_top, fun k _ => ?_⟩
    obtain ⟨j, hj, k', rfl⟩ := col_cover k
    exact h2 j hj k'
  · rintro ⟨h1, -, h2⟩
    exact ⟨h1, fun j _ k' => h2 _ (Finset.mem_univ _)⟩

/-- The running maximum after all 16 tiles is -big joined with the maximum over all 8192 columns at once. -/
theorem kneg_eq : kneg y lc lr r
    = max nbig ((Finset.univ : Finset (Fin 8192)).fold max (⊥ : EReal) (fun k => negCand y lc lr r k)) := by
  refine eq_of_forall_ge_iff fun c => ?_
  rw [kneg, runMax_le_iff, max_le_iff, Finset.fold_max_le]
  constructor
  · rintro ⟨h1, h2⟩
    refine ⟨h1, bot_le, fun k _ => ?_⟩
    obtain ⟨j, hj, k', rfl⟩ := col_cover k
    exact h2 j hj k'
  · rintro ⟨h1, -, h2⟩
    exact ⟨h1, fun j _ k' => h2 _ (Finset.mem_univ _)⟩

end tiles

/-! ## The candidates on the diagonal, and the two sides' candidates -/

section assembly
variable (x : Feat) (l : Lab)

/-- The kernel's mask at (r, k) is the comparison of the labels of r and k. -/
theorem posCand_eq (r k : Fin 8192) : posCand (unitArr x) (colOf l) (rowOf l) r k
    = if l (ix1 r) = l (ix1 k) then dot (unitArr x) r k else big := rfl

theorem negCand_eq (r k : Fin 8192) : negCand (unitArr x) (colOf l) (rowOf l) r k
    = if l (ix1 r) = l (ix1 k) then nbig else dot (unitArr x) r k := rfl

variable (hfin : ∀ j, x j ≠ ⊤ ∧ x j ≠ ⊥) (hpos : ∀ r, 0 < rowSq x r)
include hfin hpos

/-- The kernel's minimum for row r is the reference's. -/
theorem kpos_eq_rpos (r : Fin 8192) : kpos (unitArr x) (colOf l) (rowOf l) r = rpos x l r := by
  have hc : (fun k => posCand (unitArr x) (colOf l) (rowOf l) r k)
      = fun k => if l (ix1 r) = l (ix1 k) then simR x r k else big := by
    funext k
    rw [posCand_eq, dot_eq_simR x hfin hpos]
  rw [kpos_eq, rpos, ← hc]
  refine min_eq_right ?_
  refine (Finset.fold_min_le _).2 (Or.inr ⟨r, Finset.mem_univ _, ?_⟩)
  show posCand (unitArr x) (colOf l) (rowOf l) r r ≤ big
  rw [posCand_eq, if_pos rfl, dot_self x hfin hpos]
  exact one_le_big

/-- The kernel's maximum for row r is the reference's. -/
theorem kneg_eq_rneg (r : Fin 8192) : kneg (unitArr x) (colOf l) (rowOf l) r = rneg x l r := by
  have hc : (fun k => negCand (unitArr x) (colOf l) (rowOf l) r k)
      = fun k => if l (ix1 r) = l (ix1 k) then -big else simR x r k := by
    funext k
    rw [negCand_eq, dot_eq_simR x hfin hpos, nbig_eq_neg_big]
  rw [kneg_eq, rneg, ← hc]
  refine max_eq_right ?_
  refine (Finset.le_fold_max _).2 (Or.inr ⟨r, Finset.mem_univ _, ?_⟩)
  show nbig ≤ negCand (unitArr x) (colOf l) (rowOf l) r r
  rw [negCand_eq, if_pos rfl]

/-- The kernel's loss is the reference's. -/
theorem loss_eq : kernelLoss x l = refLoss x l := by
  unfold kernelLoss refLoss
  rw [show kpos (unitArr x) (colOf l) (rowOf l) = rpos x l from funext (kpos_eq_rpos x l hfin hpos),
    show kneg (unitArr x) (colOf l) (rowOf l) = rneg x l from funext (kneg_eq_rneg x l hfin hpos)]

end assembly

end Cert.Spec

end
-- ==== Proof.PreFacts.lean ====
/-
  What the precondition gives: every feature is a real number (neither +∞ nor -∞), and every row's sum of squares
  is positive.

  The printed predicate is the conjunction of two "for all" reductions by "and": of |x| < +∞ over every entry, and of
  0 + Σ_d x[r, d]² > 0 over every row. Each reduction that came out 1 met only 1s; a comparison that is 1 is the
  strict inequality it decides; |x| = max x (-x) below +∞ rules both infinities out.
-/
import proofs.«116771_j2688649527615_1_alg».proof.Proof.Gen.Pre_finite_inputs
import proofs.«116771_j2688649527615_1_alg».proof.Proof.Spec
import Idealize.ShloMosaic.Lib.ReduceAll
import Idealize.ShloMosaic.Lib.ValueIdx
import Idealize.ShloMosaic.PureOps.Ideal.Laws

noncomputable section

namespace Cert.PreFacts

open Cert.Pre_finite_inputs Idealize.ShloMosaic Idealize.ShloMosaic.ValueIdx
open scoped BigOperators

/-- The scalar shape has one index. -/
instance subsingleton_scalarIdx : Subsingleton S_.Idx := ⟨fun a b => funext fun d => d.elim0⟩

/-! ## Comparisons that came out 1 -/

theorem lt_of_cmp_olt {a b : EReal} (h : Ideal.cmp .olt a b = 1#1) : a < b := by
  have e : Ideal.cmp .olt a b = BitVec.ofBool (decide (a < b)) := rfl
  rw [e] at h
  by_contra hn
  rw [decide_eq_false hn] at h
  exact absurd h (by decide)

theorem lt_of_cmp_ogt {a b : EReal} (h : Ideal.cmp .ogt a b = 1#1) : b < a := by
  have e : Ideal.cmp .ogt a b = BitVec.ofBool (decide (b < a)) := rfl
  rw [e] at h
  by_contra hn
  rw [decide_eq_false hn] at h
  exact absurd h (by decide)

/-- An extended real whose absolute value is below +∞ is neither infinity. -/
theorem finite_of_abs_lt_top (a : EReal) (h : max a (-a) < (⊤ : EReal)) : a ≠ ⊤ ∧ a ≠ ⊥ := by
  constructor
  · rintro rfl
    simp at h
  · rintro rfl
    simp at h

/-! ## A row's sum of squares as the host computes it -/

/-- Row r with coordinate d put back is (r, d). -/
theorem lift_row (h : S8192x256.Reduces [1] S8192) (r : Fin 8192) (k : Fin (S8192x256.size 1)) :
    h.lift (ix1 r) k = ix2 r (⟨k.val, k.isLt⟩ : Fin 256) :=
  funext fun a => Fin.ext (by match a with | ⟨0, _⟩ => rfl | ⟨1, _⟩ => rfl)

/-- The host's sum of the squares along a row, from the zero word, is 0 + Σ_d x[r, d]². -/
theorem rowSum_apply (h' : S8192x256.ReducesTo [1] S8192) (hu : 0 < S_.numel) (x : FVec Ideal S8192x256 .f32) (r : Fin 8192) :
    Host.reduceAdd (F := Ideal) (mulf x x) (constant (F := Ideal) S_ .f32 0x00000000#32) h' hu (ix1 r)
      = Cert.Spec.zero32 + Cert.Spec.rowSq x r := by
  have h : S8192x256.Reduces [1] S8192 := by decide
  simp only [Host.reduceAdd, Ideal.hostReduceAdd_def]
  rw [Ideal.hostReduceAdd_single h' h]
  unfold Cert.Spec.rowSq
  refine congrArg₂ (· + ·) rfl (Finset.sum_congr rfl fun k _ => ?_)
  rw [lift_row h r k]
  rfl

/-! ## The precondition read -/

/-- From the printed precondition: every feature is a real number, and every row's sum of squares is positive. -/
theorem of_pre [Cert.Pre_finite_inputs.Facts] (x : FVec Ideal Cert.Pre_finite_inputs.S8192x256 .f32)
    (l : IVec Cert.Pre_finite_inputs.S8192 32)
    (h : Cert.Pre_finite_inputs.fn (F := Ideal) x l = fun _ => 1#1) :
    (∀ j, x j ≠ ⊤ ∧ x j ≠ ⊥) ∧ (∀ r : Fin 8192, 0 < Cert.Spec.rowSq x r) := by
  have h0 := congrFun h ValueIdx.ix0
  dsimp only [Cert.Pre_finite_inputs.fn] at h0
  obtain ⟨h1, h2⟩ := IntOp.andi_eq_one.1 h0
  constructor
  · intro j
    have e := Host.reduce_andi_all _ _ _ _ _ h1 j
    have hlt : max (x j) (-(x j)) < Ideal.ofBits .f32 0x7F800000#32 := lt_of_cmp_olt e
    have hi : Ideal.ofBits .f32 0x7F800000#32 = (⊤ : EReal) := by simp [Ideal.ofBits, Ideal.ieee]
    rw [hi] at hlt
    exact finite_of_abs_lt_top (x j) hlt
  · intro r
    have e := Host.reduce_andi_all _ _ _ _ _ h2 (ix1 r)
    have hlt : Ideal.ofBits .f32 0x00000000#32
        < Host.reduceAdd (F := Ideal) (mulf x x) (constant (F := Ideal) S_ .f32 0x00000000#32)
            Facts.reducesTo_S8192x256_S8192_d1 Facts.h_S_ (ix1 r) := lt_of_cmp_ogt e
    rw [rowSum_apply, Ideal.ofBits_zero_f32] at hlt
    unfold Cert.Spec.zero32 at hlt
    rw [Ideal.ofBits_zero_f32, zero_add] at hlt
    exact hlt

end Cert.PreFacts

end
-- ==== Proof.lean ====
/-
  The certificate of the hardest-positive / hardest-negative cosine triplet loss: a two-call kernel against its
  array-level reference, over features x : f32[8192, 256] with every entry finite and no zero row, and labels i32[8192].

  Both programs scale every row of x to unit length, take sim(r, k) = ⟨row r, row k⟩, pos(r) = the least sim over the
  columns with r's label (the others count as the largest finite f32), neg(r) = the greatest sim over the columns with
  another label (the others count as minus that), and return the mean over r of max(neg r − pos r + 1/4, 0).
  The kernel scales by x · rsqrt(Σ x²) where the reference divides by sqrt(Σ x²): one function of a row with Σ x² > 0.
  The kernel takes the extrema tile by tile (sixteen tiles of 512 columns), the running minimum started at the largest
  finite value and the running maximum at its negative, where the reference takes them over all 8192 columns from +∞ and
  −∞: the same numbers, because the diagonal column is in every row's own label class — it contributes sim(r, r) = 1,
  below the largest finite value, to the minimum and minus the largest finite value to the maximum.
  The frames of the two kernel programs are the kernel program's run (two kernel regions among host stretches, the
  second reading the scaled rows through two windows) with the result dropped; the reference's is its run likewise.
-/
import proofs.«116771_j2688649527615_1_alg».proof.Defs
import proofs.«116771_j2688649527615_1_alg».proof.Proof.Gen.Kernel
import proofs.«116771_j2688649527615_1_alg».proof.Proof.Gen.KernelIdeal
import proofs.«116771_j2688649527615_1_alg».proof.Proof.Gen.ReferenceIdeal
import proofs.«116771_j2688649527615_1_alg».proof.Proof.Gen.Pre_finite_inputs
import proofs.«116771_j2688649527615_1_alg».proof.Proof.MainRunB
import proofs.«116771_j2688649527615_1_alg».proof.Proof.KernelValue
import proofs.«116771_j2688649527615_1_alg».proof.Proof.RefRun
import proofs.«116771_j2688649527615_1_alg».proof.Proof.RefValue
import proofs.«116771_j2688649527615_1_alg».proof.Proof.SpecLaws
import proofs.«116771_j2688649527615_1_alg».proof.Proof.PreFacts

noncomputable section

namespace Cert.Proof

open Idealize.ShloMosaic Idealize.SL.Sem

/-- The word-level kernel program runs to the end and leaves its arguments as launched: its run with the result dropped. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Fr.run_main (F := Bits) m ρ)

/-- The idealized kernel program likewise. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Fr.run_main (F := Ideal) m ρ)

/-- The reference is host operations only: its run with the result dropped. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.RefRun.run (F := Ideal) m ρ)

/-- At the extended reals both programs end with the specification's loss of the two argument buffers: the kernel's
    tiled running extrema over rows scaled by the reciprocal square root, the reference's extrema over all columns of
    rows divided by the square root, equal under the precondition (every entry finite, no zero row). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.kernelLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Fr.kernel_result m c), (h c).2⟩)
      (Cert.KernelIdeal.Fr.run_main (F := Ideal) m ρ)
  · refine (θ_run (Cert.ReferenceIdeal.defs (F := Ideal)) _ _).mono (fun _ h c => ⟨(h c).1.trans ?_, (h c).2⟩)
      (Cert.ReferenceIdeal.RefRun.run (F := Ideal) m' ρ')
    rw [(hagree c).1, (hagree c).2]
    refine (Cert.ReferenceIdeal.RefValue.result_eq _ _).trans ?_
    obtain ⟨hfin, hpos⟩ := @Cert.PreFacts.of_pre Cert.Pre_finite_inputs.Gen.facts _ _ (hpre c)
    exact funext fun _ => (Cert.Spec.loss_eq _ _ hfin hpos).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
